-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S8x512x512 : Shape := ⟨3, ![8, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x21x512x512 .f32) (main_arg1 : IVec S8x512x512 32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_c_0 : IVec S_ 32 := constantI S_ 32 255#32
  let main_v4 : IVec S8x512x512 32 := broadcastInDim S8x512x512 ![] bcast_S_S8x512x512 main_c_0
  let main_v5 : IVec S8x512x512 1 := cmpi .eq main_arg1 main_v4
  let main_c_1 : IVec S_ 32 := constantI S_ 32 0#32
  let main_v6 : IVec S8x512x512 32 := broadcastInDim S8x512x512 ![] bcast_S_S8x512x512 main_c_1
  let main_v7 : IVec S8x512x512 1 := cmpi .sge main_arg1 main_v6
  let main_c_2 : IVec S_ 32 := constantI S_ 32 21#32
  let main_v8 : IVec S8x512x512 32 := broadcastInDim S8x512x512 ![] bcast_S_S8x512x512 main_c_2
  let main_v9 : IVec S8x512x512 1 := cmpi .slt main_arg1 main_v8
  let main_v10 : IVec S8x512x512 1 := andi main_v7 main_v9
  let main_v11 : IVec S8x512x512 1 := ori main_v5 main_v10
  let main_c_3 : IVec S_ 1 := constantI S_ 1 1#1
  let main_v12 : IVec S_ 1 := (fun x v => Host.reduce IntOp.andi x v reducesTo_S8x512x512_S_d0_1_2 h_S_) main_v11 main_c_3
  let main_v13 : IVec S_ 1 := andi main_v3 main_v12
  main_v13
-- ==== Kernel.lean ====
abbrev S8x21x512x512 : Shape := ⟨4, ![8, 21, 512, 512]⟩
abbrev S8x512x512 : Shape := ⟨3, ![8, 512, 512]⟩
abbrev S64x256 : Shape := ⟨2, ![64, 256]⟩
abbrev S1x21x256x512 : Shape := ⟨4, ![1, 21, 256, 512]⟩
abbrev S1x256x512 : Shape := ⟨3, ![1, 256, 512]⟩
abbrev S8x128 : Shape := ⟨2, ![8, 128]⟩
abbrev S256x512 : Shape := ⟨2, ![256, 512]⟩
abbrev S1x1x256x512 : Shape := ⟨4, ![1, 1, 256, 512]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S64x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x21x256x512, .f32⟩
  | .local _ .vmem, ⟨1, _⟩ => ⟨S1x21x256x512, .f32⟩
  | .local _ .vmem, ⟨2, _⟩ => ⟨S1x256x512, .i32⟩
  | .local _ .vmem, ⟨3, _⟩ => ⟨S1x256x512, .i32⟩
  | .local _ .vmem, ⟨4, _⟩ => ⟨S8x128, .f32⟩
  | .local _ .vmem, ⟨5, _⟩ => ⟨S8x128, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x21x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x21x256x512_S1x1x256x512_0_0_0_0 : ∀ a, (![0, 0, 0, 0] : Fin 4 → Nat) a + S1x1x256x512.size a ≤ S1x21x256x512.size a
  h_S1x1x256x512 : 0 < S1x1x256x512.numel
  shapeCasts_S1x1x256x512_S256x512 : S1x1x256x512.ShapeCasts S256x512
  inb_S1x21x256x512_S1x1x256x512_0_1_0_0 : ∀ a, (![0, 1, 0, 0] : Fin 4 → Nat) a + S1x1x256x512.size a ≤ S1x21x256x512.size a
  inb_S1x21x256x512_S1x1x256x512_0_2_0_0 : ∀ a, (![0, 2, 0, 0] : Fin 4 → Nat) a + S1x1x256x512.size a ≤ S1x21x256x512.size a
  inb_S1x21x256x512_S1x1x256x512_0_3_0_0 : ∀ a, (![0, 3, 0, 0] : Fin 4 → Nat) a + S1x1x256x512.size a ≤ S1x21x256x512.size a
  inb_S1x21x256x512_S1x1x256x512_0_4_0_0 : ∀ a, (![0, 4, 0, 0] : Fin 4 → Nat) a + S1x1x256x512.size a ≤ S1x21x256x512.size a
  inb_S1x21x256x512_S1x1x256x512_0_5_0_0 : ∀ a, (![0, 5, 0, 0] : Fin 4 → Nat) a + S1x1x256x512.size a ≤ S1x21x256x512.size a
  inb_S1x21x256x512_S1x1x256x512_0_6_0_0 : ∀ a, (![0, 6, 0, 0] : Fin 4 → Nat) a + S1x1x256x512.size a ≤ S1x21x256x512.size a
  inb_S1x21x256x512_S1x1x256x512_0_7_0_0 : ∀ a, (![0, 7, 0, 0] : Fin 4 → Nat) a + S1x1x256x512.size a ≤ S1x21x256x512.size a
  inb_S1x21x256x512_S1x1x256x512_0_8_0_0 : ∀ a, (![0, 8, 0, 0] : Fin 4 → Nat) a + S1x1x256x512.size a ≤ S1x21x256x512.size a
  inb_S1x21x256x512_S1x1x256x512_0_9_0_0 : ∀ a, (![0, 9, 0, 0] : Fin 4 → Nat) a + S1x1x256x512.size a ≤ S1x21x256x512.size a
  inb_S1x21x256x512_S1x1x256x512_0_10_0_0 : ∀ a, (![0, 10, 0, 0] : Fin 4 → Nat) a + S1x1x256x512.size a ≤ S1x21x256x512.size a
  inb_S1x21x256x512_S1x1x256x512_0_11_0_0 : ∀ a, (![0, 11, 0, 0] : Fin 4 → Nat) a + S1x1x256x512.size a ≤ S1x21x256x512.size a
  inb_S1x21x256x512_S1x1x256x512_0_12_0_0 : ∀ a, (![0, 12, 0, 0] : Fin 4 → Nat) a + S1x1x256x512.size a ≤ S1x21x256x512.size a
  inb_S1x21x256x512_S1x1x256x512_0_13_0_0 : ∀ a, (![0, 13, 0, 0] : Fin 4 → Nat) a + S1x1x256x512.size a ≤ S1x21x256x512.size a
  inb_S1x21x256x512_S1x1x256x512_0_14_0_0 : ∀ a, (![0, 14, 0, 0] : Fin 4 → Nat) a + S1x1x256x512.size a ≤ S1x21x256x512.size a
  inb_S1x21x256x512_S1x1x256x512_0_15_0_0 : ∀ a, (![0, 15, 0, 0] : Fin 4 → Nat) a + S1x1x256x512.size a ≤ S1x21x256x512.size a
  inb_S1x21x256x512_S1x1x256x512_0_16_0_0 : ∀ a, (![0, 16, 0, 0] : Fin 4 → Nat) a + S1x1x256x512.size a ≤ S1x21x256x512.size a
  inb_S1x21x256x512_S1x1x256x512_0_17_0_0 : ∀ a, (![0, 17, 0, 0] : Fin 4 → Nat) a + S1x1x256x512.size a ≤ S1x21x256x512.size a
  inb_S1x21x256x512_S1x1x256x512_0_18_0_0 : ∀ a, (![0, 18, 0, 0] : Fin 4 → Nat) a + S1x1x256x512.size a ≤ S1x21x256x512.size a
  inb_S1x21x256x512_S1x1x256x512_0_19_0_0 : ∀ a, (![0, 19, 0, 0] : Fin 4 → Nat) a + S1x1x256x512.size a ≤ S1x21x256x512.size a
  inb_S1x21x256x512_S1x1x256x512_0_20_0_0 : ∀ a, (![0, 20, 0, 0] : Fin 4 → Nat) a + S1x1x256x512.size a ≤ S1x21x256x512.size a
  natLt_1_32 : 1 < 32
  reduces_S256x512_S256 : S256x512.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x256_S_d0_1 : S64x256.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x256x512.size a ≤ S8x21x512x512.size a
  hwx0_0 : ∀ i : grid0.Coords, EltTy.bits .f32 = 32 ∨ (Rect.block (s := S8x21x512x512) S1x21x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S8x512x512.size a
  hwx0_1 : ∀ i : grid0.Coords, EltTy.bits .i32 = 32 ∨ (Rect.block (s := S8x512x512) S1x256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x256.size a
  hwx0_2 : ∀ i : grid0.Coords, EltTy.bits .f32 = 32 ∨ (Rect.block (s := S64x256) S8x128.size (cc0_transform_2 i) (hinb0_2 i)).WholeWords (EltTy.packing .f32)

variable [Facts₀]

abbrev win0_0 : Pipeline.Window sig grid0 :=
  Pipeline.Window.ofSpec (Memref.whole main_arg0) S1x21x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S8x512x512 : Shape := ⟨3, ![8, 512, 512]⟩
abbrev S8x21x262144 : Shape := ⟨3, ![8, 21, 262144]⟩
abbrev S8x262144x21 : Shape := ⟨3, ![8, 262144, 21]⟩
abbrev S2097152x21 : Shape := ⟨2, ![2097152, 21]⟩
abbrev S2097152 : Shape := ⟨1, ![2097152]⟩
abbrev S_ : Shape := ⟨0, ![]⟩
abbrev S2097152x1 : Shape := ⟨2, ![2097152, 1]⟩
abbrev S2097152x1x1 : Shape := ⟨3, ![2097152, 1, 1]⟩
abbrev S1 : Shape := ⟨1, ![1]⟩
abbrev S1x1x1 : Shape := ⟨3, ![1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x21x262144, .f32⟩
  | .hbm, ⟨3, _⟩ => ⟨S8x262144x21, .f32⟩
  | .hbm, ⟨4, _⟩ => ⟨S2097152x21, .f32⟩
  | .hbm, ⟨5, _⟩ => ⟨S2097152, .i32⟩
  | .hbm, ⟨6, _⟩ => ⟨S_, .i32⟩
  | .hbm, ⟨7, _⟩ => ⟨S2097152, .i32⟩
  | .hbm, ⟨8, _⟩ => ⟨S2097152, .i1⟩
  | .hbm, ⟨9, _⟩ => ⟨S_, .i32⟩
  | .hbm, ⟨10, _⟩ => ⟨S_, .i32⟩
  | .hbm, ⟨11, _⟩ => ⟨S2097152, .i32⟩
  | .hbm, ⟨12, _⟩ => ⟨S2097152, .i32⟩
  | .hbm, ⟨13, _⟩ => ⟨S_, .f32⟩
  | .hbm, ⟨14, _⟩ => ⟨S2097152, .f32⟩
  | .hbm, ⟨15, _⟩ => ⟨S_, .f32⟩
  | .hbm, ⟨16, _⟩ => ⟨S2097152, .f32⟩
  | .hbm, ⟨17, _⟩ => ⟨S2097152, .f32⟩
  | .hbm, ⟨18, _⟩ => ⟨S2097152x1, .f32⟩
  | .hbm, ⟨19, _⟩ => ⟨S2097152x21, .f32⟩
  | .hbm, ⟨20, _⟩ => ⟨S2097152x21, .f32⟩
  | .hbm, ⟨21, _⟩ => ⟨S2097152x21, .f32⟩
  | .hbm, ⟨22, _⟩ => ⟨S_, .f32⟩
  | .hbm, ⟨23, _⟩ => ⟨S2097152, .f32⟩
  | .hbm, ⟨24, _⟩ => ⟨S2097152x1, .f32⟩
  | .hbm, ⟨25, _⟩ => ⟨S2097152x1, .f32⟩
  | .hbm, ⟨26, _⟩ => ⟨S2097152x21, .f32⟩
  | .hbm, ⟨27, _⟩ => ⟨S2097152x21, .f32⟩
  | .hbm, ⟨28, _⟩ => ⟨S2097152x1, .i32⟩
  | .hbm, ⟨29, _⟩ => ⟨S_, .i32⟩
  | .hbm, ⟨30, _⟩ => ⟨S2097152x1, .i32⟩
  | .hbm, ⟨31, _⟩ => ⟨S2097152x1, .i1⟩
  | .hbm, ⟨32, _⟩ => ⟨S_, .i32⟩
  | .hbm, ⟨33, _⟩ => ⟨S2097152x1, .i32⟩
  | .hbm, ⟨34, _⟩ => ⟨S2097152x1, .i32⟩
  | .hbm, ⟨35, _⟩ => ⟨S2097152x1, .i32⟩
  | .hbm, ⟨36, _⟩ => ⟨S2097152x1x1, .i32⟩
  | .hbm, ⟨37, _⟩ => ⟨S1, .i32⟩
  | .hbm, ⟨38, _⟩ => ⟨S_, .i32⟩
  | .hbm, ⟨39, _⟩ => ⟨S2097152x1x1, .i32⟩
  | .hbm, ⟨40, _⟩ => ⟨S2097152x1x1, .i1⟩
  | .hbm, ⟨41, _⟩ => ⟨S1x1x1, .i32⟩
  | .hbm, ⟨42, _⟩ => ⟨S2097152x1x1, .i32⟩
  | .hbm, ⟨43, _⟩ => ⟨S2097152x1x1, .i1⟩
  | .hbm, ⟨44, _⟩ => ⟨S2097152x1x1, .i1⟩
  | .hbm, ⟨45, _⟩ => ⟨S_, .i1⟩
  | .hbm, ⟨46, _⟩ => ⟨S2097152x1, .i1⟩
  | .hbm, ⟨47, _⟩ => ⟨S2097152x1, .f32⟩
  | .hbm, ⟨48, _⟩ => ⟨S_, .f32⟩
  | .hbm, ⟨49, _⟩ => ⟨S2097152x1, .f32⟩
  | .hbm, ⟨50, _⟩ => ⟨S2097152x1, .f32⟩
  | .hbm, ⟨51, _⟩ => ⟨S2097152, .f32⟩
  | .hbm, ⟨52, _⟩ => ⟨S2097152, .f32⟩
  | .hbm, ⟨53, _⟩ => ⟨S_, .f32⟩
  | .hbm, ⟨54, _⟩ => ⟨S2097152, .f32⟩
  | .hbm, ⟨55, _⟩ => ⟨S2097152, .f32⟩
  | .hbm, ⟨56, _⟩ => ⟨S_, .f32⟩
  | .hbm, ⟨57, _⟩ => ⟨S2097152, .f32⟩
  | .hbm, ⟨58, _⟩ => ⟨S2097152, .f32⟩
  | .hbm, ⟨59, _⟩ => ⟨S2097152, .f32⟩
  | .hbm, ⟨60, _⟩ => ⟨S2097152, .f32⟩
  | .hbm, ⟨61, _⟩ => ⟨S_, .i32⟩
  | .hbm, ⟨62, _⟩ => ⟨S2097152, .i32⟩
  | .hbm, ⟨63, _⟩ => ⟨S2097152, .i1⟩
  | .hbm, ⟨64, _⟩ => ⟨S2097152, .f32⟩
  | .hbm, ⟨65, _⟩ => ⟨S2097152, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v7 : Ref sig .tc := ⟨.hbm, 27, rfl⟩
abbrev main_v8 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_cst : Ref sig .tc := ⟨.hbm, 53, rfl⟩
abbrev main_v12 : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_c_2 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_cst_4 : Ref sig .tc := ⟨.hbm, 68, rfl⟩
abbrev main_v23 : Ref sig .tc := ⟨.hbm, 69, rfl⟩

abbrev nD : Nat := 1
abbrev τ : Topo := Topo.v7x

variable {F : FTy → Type} [FloatOps F]

class Facts₀ : Prop where
  shapeCasts_S8x21x512x512_S8x21x262144 : S8x21x512x512.ShapeCasts S8x21x262144
  transposes_S8x21x262144_S8x262144x21_0_2_1 : S8x21x262144.Transposes [0, 2, 1] S8x262144x21
  shapeCasts_S8x262144x21_S2097152x21 : S8x262144x21.ShapeCasts S2097152x21
  shapeCasts_S8x512x512_S2097152 : S8x512x512.ShapeCasts S2097152
  bcast_S_S2097152 : S_.BroadcastsInDim S2097152 (![] : Fin 0 → Fin S2097152.rank)
  reducesTo_S2097152x21_S2097152_d1 : S2097152x21.ReducesTo [1] S2097152
  h_S_ : 0 < S_.numel
  bcast_S2097152_S2097152x1_0 : S2097152.BroadcastsInDim S2097152x1 (![0] : Fin 1 → Fin S2097152x1.rank)
  bcast_S2097152x1_S2097152x21_0_1 : S2097152x1.BroadcastsInDim S2097152x21 (![0, 1] : Fin 2 → Fin S2097152x21.rank)
  bcast_S_S2097152x1 : S_.BroadcastsInDim S2097152x1 (![] : Fin 0 → Fin S2097152x1.rank)
  shapeCasts_S2097152x1_S2097152x1x1 : S2097152x1.ShapeCasts S2097152x1x1
  bcast_S_S2097152x1x1 : S_.BroadcastsInDim S2097152x1x1 (![] : Fin 0 → Fin S2097152x1x1.rank)
  bcast_S1_S1x1x1_2 : S1.BroadcastsInDim S1x1x1 (![2] : Fin 1 → Fin S1x1x1.rank)
  bcast_S1x1x1_S2097152x1x1_0_1_2 : S1x1x1.BroadcastsInDim S2097152x1x1 (![0, 1, 2] : Fin 3 → Fin S2097152x1x1.rank)
  reducesTo_S2097152x1x1_S2097152x1_d2 : S2097152x1x1.ReducesTo [2] S2097152x1
  shapeCasts_S2097152x1_S2097152 : S2097152x1.ShapeCasts S2097152
  reducesTo_S2097152_S_d0 : S2097152.ReducesTo [0] S_
  gather_S2097152x21_S2097152x1x1_S2097152x1_n_1_0_0_1_2_11_wf : GatherDims.WF S2097152x21 S2097152x1x1 S2097152x1 [] [1] [0] [1] [0] 2 ![1, 1]

variable [Facts₀]

def gather_S2097152x21_S2097152x1x1_S2097152x1_n_1_0_0_1_2_11 : GatherDims S2097152x21 S2097152x1x1 S2097152x1 where
  offsetDims := []
  collapsedSliceDims := [1]
  operandBatchingDims := [0]
  startIndicesBatchingDims := [0]
  startIndexMap := [1]
  indexVectorDim := 2
  sliceSizes := ![1, 1]
  wf := gather_S2097152x21_S2097152x1x1_S2097152x1_n_1_0_0_1_2_11_wf

class Facts : Prop extends Facts₀ where

variable [Facts]
-- ==== Proof.Spec.lean ====
/-
  The focal loss of a batch of per-pixel class logits, as ONE function of the two argument arrays, on the extended reals.

  A pixel (b, h, w) has 21 logits x_c = X[b, c, h, w] and a label word t = T[b, h, w]. The ignore label 255 is first
  remapped to class 0; the class is then k = t. With m = max_c x_c and s = Σ_c exp (x_c - m) the log-probability of the
  labelled class is lp = (x_k - m) - log s, and the pixel's loss is -(1 - exp lp)² · lp. The result is the mean of the
  pixels' losses over all 8 · 512 · 512 = 2²¹ pixels.

  The label range is: a class 0 … 20, or the ignore label 255. Inside it the remapped word is a class.
-/
import Idealize.ShloMosaic.PureOps.Ideal
import Idealize.ShloMosaic.PureOps.Ideal.Laws
import Idealize.ShloMosaic.Lib.ValueIdx

noncomputable section

namespace Cert.Focal

open Idealize.ShloMosaic Idealize.ShloMosaic.ValueIdx

/-! ## Labels -/

/-- The ignore label is remapped to class 0 before anything reads it. -/
def remap (t : BitVec 32) : BitVec 32 := if t = 255#32 then 0#32 else t

/-- The class a (remapped) label word names: its value when that is below 21. -/
def cls (t : BitVec 32) : Fin 21 := if h : t.toNat < 21 then ⟨t.toNat, h⟩ else 0

/-- The label range: a class 0 … 20, or the ignore label. -/
def InRange (t : BitVec 32) : Prop := t = 255#32 ∨ t.toNat < 21

theorem remap_lt {t : BitVec 32} (h : InRange t) : (remap t).toNat < 21 := by
  unfold remap
  rcases h with rfl | h
  · simp
  · have : t ≠ 255#32 := by
      intro e; rw [e] at h; simp at h
    rw [if_neg this]; exact h

theorem remap_ne_ignore {t : BitVec 32} (h : InRange t) : remap t ≠ 255#32 := by
  intro e; have := remap_lt h; rw [e] at this; simp at this

theorem cls_val {t : BitVec 32} (h : t.toNat < 21) : (cls t).val = t.toNat := by
  unfold cls; rw [dif_pos h]

/-! ## One pixel -/

/-- The greatest of a pixel's 21 logits. -/
def vmax (f : Fin 21 → EReal) : EReal := (Finset.univ : Finset (Fin 21)).fold max ⊥ f

/-- The sum of the exponentials of the logits, each shifted by the greatest. -/
def vsum (f : Fin 21 → EReal) : EReal := ∑ c : Fin 21, Ideal.exp (f c - vmax f)

/-- The log-probability of class `k`. -/
def logpt (f : Fin 21 → EReal) (k : Fin 21) : EReal := f k - vmax f - Ideal.log (vsum f)

/-- The pixel's loss, -(1 - p)² · log p at p the probability of class `k`. -/
def focal (f : Fin 21 → EReal) (k : Fin 21) : EReal :=
  (0 - (1 - Ideal.exp (logpt f k)) * (1 - Ideal.exp (logpt f k))) * logpt f k

/-! ## The arrays -/

abbrev SX : Shape := ⟨4, ![8, 21, 512, 512]⟩
abbrev ST : Shape := ⟨3, ![8, 512, 512]⟩

/-- The logits of pixel (b, h, w). -/
def logits (X : SX.Idx → EReal) (b : Fin 8) (h w : Fin 512) : Fin 21 → EReal := fun c => X (ix4 b c h w)

/-- The class of pixel (b, h, w). -/
def label (T : ST.Idx → BitVec 32) (b : Fin 8) (h w : Fin 512) : Fin 21 := cls (remap (T (ix3 b h w)))

/-- The loss of pixel (b, h, w). -/
def pix (X : SX.Idx → EReal) (T : ST.Idx → BitVec 32) (b : Fin 8) (h w : Fin 512) : EReal :=
  focal (logits X b h w) (label T b h w)

/-- The sum of all pixels' losses. -/
def total (X : SX.Idx → EReal) (T : ST.Idx → BitVec 32) : EReal :=
  ∑ b : Fin 8, ∑ h : Fin 512, ∑ w : Fin 512, pix X T b h w

/-- The mean: the total over 2²¹ (the word 0x4A000000 is the f32 2097152). -/
def mean (X : SX.Idx → EReal) (T : ST.Idx → BitVec 32) : EReal :=
  Ideal.div (total X T) (Ideal.ofBits .f32 0x4A000000#32)

end Cert.Focal

end
-- ==== Proof.PreDecode.lean ====
/-
  The printed precondition, read back: when the predicate is all ones, every logit is a real number and every label word
  is in the label range.

  The predicate is the conjunction of two "for all" reductions. The first says |x| < +∞ at every logit x, where the
  absolute value on the extended reals is max x (-x) and the word 0x7F800000 denotes +∞: that excludes both infinities,
  so x is a real. The second says, at every label word t read as a signed integer, t = 255 or (0 ≤ t and t < 21); a signed
  word that is non-negative and below 21 has its unsigned value below 21.
-/
import proofs.«420474_j10754598109558_3_alg».proof.Pre_finite_inputs
import proofs.«420474_j10754598109558_3_alg».proof.Proof.Spec
import Idealize.ShloMosaic.Lib.ReduceAll
import Idealize.ShloMosaic.Lib.StableHlo.Predicate
import Idealize.ShloMosaic.Lib.ValueIdx

noncomputable section

namespace Cert.Focal

open Idealize.ShloMosaic Idealize.ShloMosaic.ValueIdx

/-- The scalar shape has one index. -/
instance subsingleton_scalar_idx : Subsingleton Cert.Pre_finite_inputs.S_.Idx := ⟨fun a b => funext fun d => d.elim0⟩

/-- The f32 word 0x7F800000 denotes +∞. -/
theorem ofBits_inf : Ideal.ofBits .f32 0x7F800000#32 = (⊤ : EReal) := by simp [Ideal.ofBits, Ideal.ieee]

/-- An extended real whose absolute value is strictly below +∞ is a real. -/
theorem real_of_abs_lt_top (x : EReal) (h : Ideal.cmp .olt (max x (-x)) ⊤ = 1#1) : ∃ r : ℝ, x = ((r : ℝ) : EReal) := by
  induction x using EReal.rec with
  | bot => simp [Ideal.cmp] at h
  | coe r => exact ⟨r, rfl⟩
  | top => simp [Ideal.cmp] at h

/-- A signed word that is at least 0 and below 21 has its unsigned value below 21. -/
theorem toNat_lt_of_signed (t : BitVec 32) (h1 : IntOp.cmpi .sge t 0#32 = 1#1) (h2 : IntOp.cmpi .slt t 21#32 = 1#1) :
    t.toNat < 21 := by
  simp only [IntOp.cmpi, StableHlo.Predicate.ofBool_eq_one_iff, BitVec.sle, BitVec.slt, decide_eq_true_eq] at h1 h2
  have e0 : (0#32 : BitVec 32).toInt = 0 := by decide
  have e21 : (21#32 : BitVec 32).toInt = 21 := by decide
  rw [e0] at h1
  rw [e21] at h2
  rw [BitVec.toInt_eq_toNat_cond] at h1 h2
  have := t.isLt
  split at h1 <;> omega

/-- The label predicate at one word: t = 255, or 0 ≤ t < 21 signed, puts t in the label range. -/
theorem inRange_of_word (t : BitVec 32)
    (h : IntOp.ori (IntOp.cmpi .eq t 255#32) (IntOp.andi (IntOp.cmpi .sge t 0#32) (IntOp.cmpi .slt t 21#32)) = 1#1) :
    InRange t := by
  rcases IntOp.ori_eq_one.1 h with h | h
  · exact Or.inl (StableHlo.Predicate.cmpi_eq_iff.1 h)
  · obtain ⟨h1, h2⟩ := IntOp.andi_eq_one.1 h
    exact Or.inr (toNat_lt_of_signed t h1 h2)

theorem pre_decode [Cert.Pre_finite_inputs.Facts]
    (X : FVec Ideal Cert.Pre_finite_inputs.S8x21x512x512 .f32) (T : IVec Cert.Pre_finite_inputs.S8x512x512 32)
    (h : Cert.Pre_finite_inputs.fn (F := Ideal) X T = fun _ => 1#1) :
    (∀ i, ∃ r : ℝ, X i = ((r : ℝ) : EReal)) ∧ (∀ i, Cert.Focal.InRange (T i)) := by
  have h0 := congrFun h ix0
  dsimp only [Cert.Pre_finite_inputs.fn] at h0
  obtain ⟨hA, hB⟩ := IntOp.andi_eq_one.1 h0
  constructor
  · intro i
    have hi := Host.reduce_andi_all _ _ _ _ _ hA i
    refine real_of_abs_lt_top (X i) ?_
    rw [← ofBits_inf]
    exact hi
  · intro i
    have hi := Host.reduce_andi_all _ _ _ _ _ hB i
    exact inRange_of_word (T i) hi

end Cert.Focal

end
-- ==== Proof.SpecLemmas.lean ====
/-
  The per-pixel focal loss on REAL logits: every quantity on the way is a real number — the greatest logit, the sum
  of shifted exponentials (which is positive, so its logarithm is a real), the log-probability, the loss —, and the
  reference's spelling of the loss, which squares 1 - p by a power with exponent 2 and negates, is the same real.
  Also the float patterns the two programs spell, as the reals they denote.
-/
import proofs.«420474_j10754598109558_3_alg».proof.Proof.Spec

noncomputable section

namespace Cert.Focal

open Idealize.ShloMosaic

/-! ## The float patterns -/

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_2p21 : Ideal.ofBits .f32 0x4A000000#32 = ((2097152 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-! ## Sums and maxima of reals inside the extended reals -/

theorem coe_sum {ι : Type*} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The fold of `max` from `⊥` over a non-empty set of reals is a real. -/
theorem fold_max_real (x : Fin 21 → ℝ) (s : Finset (Fin 21)) (hs : s.Nonempty) :
    ∃ r : ℝ, s.fold max ⊥ (fun c => ((x c : ℝ) : EReal)) = (r : EReal) := by
  classical
  induction s using Finset.induction_on with
  | empty => exact absurd hs (by simp)
  | insert a s ha ih =>
    rw [Finset.fold_insert ha]
    by_cases h : s.Nonempty
    · obtain ⟨r, hr⟩ := ih h
      rw [hr]; exact ⟨max (x a) r, (EReal.coe_strictMono.monotone.map_max).symm⟩
    · rw [Finset.not_nonempty_iff_eq_empty.mp h, Finset.fold_empty]
      exact ⟨x a, max_bot_right _⟩

variable (x : Fin 21 → ℝ) (k : Fin 21)

theorem vmax_real : ∃ m : ℝ, vmax (fun c => ((x c : ℝ) : EReal)) = (m : EReal) :=
  fold_max_real x Finset.univ Finset.univ_nonempty

theorem vsum_real : ∃ s : ℝ, 0 < s ∧ vsum (fun c => ((x c : ℝ) : EReal)) = (s : EReal) := by
  obtain ⟨m, hm⟩ := vmax_real x
  refine ⟨∑ c : Fin 21, Real.exp (x c - m), Finset.sum_pos (fun c _ => Real.exp_pos _) Finset.univ_nonempty, ?_⟩
  unfold vsum
  rw [hm, ← coe_sum]
  refine Finset.sum_congr rfl fun c _ => ?_
  rw [← EReal.coe_sub, Ideal.exp_coe]

theorem logpt_real : ∃ l : ℝ, logpt (fun c => ((x c : ℝ) : EReal)) k = (l : EReal) := by
  obtain ⟨m, hm⟩ := vmax_real x
  obtain ⟨s, hs, hs'⟩ := vsum_real x
  refine ⟨x k - m - Real.log s, ?_⟩
  unfold logpt
  rw [hm, hs', Ideal.log_coe, if_neg (not_le.mpr hs), ← EReal.coe_sub, ← EReal.coe_sub]

theorem focal_real : ∃ l : ℝ, focal (fun c => ((x c : ℝ) : EReal)) k = (l : EReal) := by
  obtain ⟨l, hl⟩ := logpt_real x k
  refine ⟨(0 - (1 - Real.exp l) * (1 - Real.exp l)) * l, ?_⟩
  unfold focal
  rw [hl, Ideal.exp_coe]
  norm_cast

/-- The reference's spelling: the square as a power with exponent 2.0, negated. -/
theorem focal_pow :
    -(Ideal.pow (1 - Ideal.exp (logpt (fun c => ((x c : ℝ) : EReal)) k)) (Ideal.ofBits .f32 0x40000000#32))
        * logpt (fun c => ((x c : ℝ) : EReal)) k
      = focal (fun c => ((x c : ℝ) : EReal)) k := by
  obtain ⟨l, hl⟩ := logpt_real x k
  unfold focal
  rw [hl, Ideal.exp_coe, ofBits_two]
  have h1 : (1 : EReal) - ((Real.exp l : ℝ) : EReal) = ((1 - Real.exp l : ℝ) : EReal) := by norm_cast
  rw [h1]
  show -(((Real.rpow (1 - Real.exp l) 2 : ℝ) : EReal)) * (l : EReal) = _
  have h2 : Real.rpow (1 - Real.exp l) 2 = (1 - Real.exp l) * (1 - Real.exp l) := by
    show (1 - Real.exp l) ^ (2 : ℝ) = _
    rw [Real.rpow_two, sq]
  rw [h2]
  norm_cast
  ring

end Cert.Focal

end
-- ==== Proof.KernelPoint.lean ====
/-
  The kernel's body at one pixel of a tile, at the ideal values.

  A tile is a [21, 256, 512] block of logits and a [256, 512] block of label words. At the pixel (r, w) of the tile
  the body takes the greatest logit by a chain of 21 maxima from -inf, picks the labelled logit by a chain of 21
  selects on the remapped label, sums the 21 shifted exponentials into a running sum from 0, and forms the loss
  -(1 - p)^2 log p, times a mask that is 1 because the remapped label is never the ignore label. The lanes are then
  summed (512 per row), the rows are summed (256), and the one number is splat over the [8, 128] output tile.
  So every entry of the output tile is the sum over the tile's pixels of the specification's per-pixel loss.
-/
import proofs.«420474_j10754598109558_3_alg».proof.Proof.Gen.KernelIdeal.Frame
import proofs.«420474_j10754598109558_3_alg».proof.Proof.SpecLemmas
import Idealize.ShloMosaic.Lib.Pipeline.Value
import Idealize.ShloMosaic.Lib.ValueLayout
import Idealize.ShloMosaic.PureOps.Ideal.Laws

noncomputable section

namespace Cert.KernelIdeal.Point

open Cert.KernelIdeal Cert.KernelIdeal.Gen Idealize.ShloMosaic Idealize.ShloMosaic.ValueIdx Cert.Focal

/-! ## Scalars -/

/-- A select on a word equality is a case split on the equality. -/
theorem select_eq {α : Type} (t c : BitVec 32) (a b : α) :
    Scalar.select (IntOp.cmpi .eq t c) a b = if t = c then a else b := by
  unfold Scalar.select IntOp.cmpi
  by_cases h : t = c
  · subst h; simp
  · have hb : (t == c) = false := by simpa using h
    simp [hb, h]

/-- The remapped label at a pixel. -/
theorem remap_apply (t : BitVec 32) : Scalar.select (IntOp.cmpi .eq t 255#32) 0#32 t = remap t := by
  rw [select_eq]; rfl

/-- The mask of a label that is not the ignore label is 1. -/
theorem mask_one {t : BitVec 32} (h : t ≠ 255#32) :
    Scalar.sitofp (F := Ideal) .f32 ((IntOp.cmpi .ne t 255#32).setWidth 32) = (1 : EReal) := by
  have : IntOp.cmpi .ne t 255#32 = 1#1 := by
    have hb : (t != 255#32) = true := by simpa [bne_iff_ne] using h
    unfold IntOp.cmpi; simp [hb]
  rw [this, Ideal.scalar_sitofp_def]
  norm_num

/-- The chain of 21 selects on a class word picks that class's entry. -/
theorem pick_eq (t : BitVec 32) (ht : t.toNat < 21) (z : EReal) (a : Fin 21 → EReal) :
    Scalar.select (IntOp.cmpi .eq t 20#32) (a 20) (Scalar.select (IntOp.cmpi .eq t 19#32) (a 19) (Scalar.select (IntOp.cmpi .eq t 18#32) (a 18) (Scalar.select (IntOp.cmpi .eq t 17#32) (a 17) (Scalar.select (IntOp.cmpi .eq t 16#32) (a 16) (Scalar.select (IntOp.cmpi .eq t 15#32) (a 15) (Scalar.select (IntOp.cmpi .eq t 14#32) (a 14) (Scalar.select (IntOp.cmpi .eq t 13#32) (a 13) (Scalar.select (IntOp.cmpi .eq t 12#32) (a 12) (Scalar.select (IntOp.cmpi .eq t 11#32) (a 11) (Scalar.select (IntOp.cmpi .eq t 10#32) (a 10) (Scalar.select (IntOp.cmpi .eq t 9#32) (a 9) (Scalar.select (IntOp.cmpi .eq t 8#32) (a 8) (Scalar.select (IntOp.cmpi .eq t 7#32) (a 7) (Scalar.select (IntOp.cmpi .eq t 6#32) (a 6) (Scalar.select (IntOp.cmpi .eq t 5#32) (a 5) (Scalar.select (IntOp.cmpi .eq t 4#32) (a 4) (Scalar.select (IntOp.cmpi .eq t 3#32) (a 3) (Scalar.select (IntOp.cmpi .eq t 2#32) (a 2) (Scalar.select (IntOp.cmpi .eq t 1#32) (a 1) (Scalar.select (IntOp.cmpi .eq t 0#32) (a 0) (z))))))))))))))))))))) = a (cls t) := by
  simp only [select_eq]
  obtain ⟨n, hn, rfl⟩ : ∃ n, n < 21 ∧ t = BitVec.ofNat 32 n := ⟨t.toNat, ht, by simp⟩
  interval_cases n <;> simp [cls] <;> rfl

/-- A chain of maxima from `b` over a list is `b` against the list's own maximum. -/
theorem foldl_max (l : List EReal) (b : EReal) : l.foldl max b = max b (l.foldr max ⊥) := by
  induction l generalizing b with
  | nil => simp
  | cons x l ih => rw [List.foldl_cons, ih, List.foldr_cons, max_assoc]

/-- The chain of 21 maxima from -inf is the greatest logit. -/
theorem vmax_chain (a : Fin 21 → EReal) :
    List.foldl max (Ideal.ofBits .f32 0xFF800000#32) [a 0, a 1, a 2, a 3, a 4, a 5, a 6, a 7, a 8, a 9, a 10, a 11, a 12, a 13, a 14, a 15, a 16, a 17, a 18, a 19, a 20] = vmax a := by
  rw [foldl_max, ofBits_neg_inf, bot_sup_eq]
  rfl

/-- The running sum from 0 of 21 terms is their sum. -/
theorem vsum_chain (e : Fin 21 → EReal) :
    List.foldl (· + ·) (Ideal.ofBits .f32 0x00000000#32) [e 0, e 1, e 2, e 3, e 4, e 5, e 6, e 7, e 8, e 9, e 10, e 11, e 12, e 13, e 14, e 15, e 16, e 17, e 18, e 19, e 20] = ∑ c : Fin 21, e c := by
  rw [Ideal.ofBits_zero_f32, ← List.sum_eq_foldl, Fin.sum_univ_def]
  rfl

/-! ## The body's payloads at an index, over variables -/

abbrev LV := Vec Ideal S1x1x256x512 .f32
/-- One class's loaded plane viewed [256, 512]. -/
abbrev sc (l : LV) : FVec Ideal S256x512 .f32 := shapeCast S256x512 l shapeCasts_S1x1x256x512_S256x512

variable (l0 l1 l2 l3 l4 l5 l6 l7 l8 l9 l10 l11 l12 l13 l14 l15 l16 l17 l18 l19 l20 : LV) (lt : Vec Ideal S1x256x512 .i32)

/-- The running maximum after all 21 classes. -/
abbrev maxv : FVec Ideal S256x512 .f32 :=
  k0_pay35 (k0_pay32 (k0_pay25 (k0_pay16 (k0_pay9 l0 l1 l2 l3) l4 l5 l6 l7 l8) l9 l10 l11 l12 l13 l14) l15 l16 l17 l18 l19) l20

theorem maxv_apply (y : S256x512.Idx) :
    maxv l0 l1 l2 l3 l4 l5 l6 l7 l8 l9 l10 l11 l12 l13 l14 l15 l16 l17 l18 l19 l20 y = List.foldl max (Ideal.ofBits .f32 0xFF800000#32) [sc l0 y, sc l1 y, sc l2 y, sc l3 y, sc l4 y, sc l5 y, sc l6 y, sc l7 y, sc l8 y, sc l9 y, sc l10 y, sc l11 y, sc l12 y, sc l13 y, sc l14 y, sc l15 y, sc l16 y, sc l17 y, sc l18 y, sc l19 y, sc l20 y] := rfl

/-- The labelled logit after all 21 selects. -/
abbrev pickv : FVec Ideal S256x512 .f32 :=
  k0_pay36 (k0_pay2 lt) (k0_pay33 (k0_pay2 lt) (k0_pay23 (k0_pay2 lt) (k0_pay17 (k0_pay2 lt) (k0_pay7 lt l0 l1 l2) (k0_pay8 l3) (k0_pay10 lt) l4 l5 l6 l7 l8) 9#32 l9 l10 l11 l12 l13) (k0_pay24 l14) k0_pay26 l15 l16 l17 l18 l19) 20#32 l20

theorem pickv_apply (y : S256x512.Idx) :
    pickv l0 l1 l2 l3 l4 l5 l6 l7 l8 l9 l10 l11 l12 l13 l14 l15 l16 l17 l18 l19 l20 lt y =
      Scalar.select (IntOp.cmpi .eq (k0_pay2 (F := Ideal) lt y) 20#32) (sc l20 y) (Scalar.select (IntOp.cmpi .eq (k0_pay2 (F := Ideal) lt y) 19#32) (sc l19 y) (Scalar.select (IntOp.cmpi .eq (k0_pay2 (F := Ideal) lt y) 18#32) (sc l18 y) (Scalar.select (IntOp.cmpi .eq (k0_pay2 (F := Ideal) lt y) 17#32) (sc l17 y) (Scalar.select (IntOp.cmpi .eq (k0_pay2 (F := Ideal) lt y) 16#32) (sc l16 y) (Scalar.select (IntOp.cmpi .eq (k0_pay2 (F := Ideal) lt y) 15#32) (sc l15 y) (Scalar.select (IntOp.cmpi .eq (k0_pay2 (F := Ideal) lt y) 14#32) (sc l14 y) (Scalar.select (IntOp.cmpi .eq (k0_pay2 (F := Ideal) lt y) 13#32) (sc l13 y) (Scalar.select (IntOp.cmpi .eq (k0_pay2 (F := Ideal) lt y) 12#32) (sc l12 y) (Scalar.select (IntOp.cmpi .eq (k0_pay2 (F := Ideal) lt y) 11#32) (sc l11 y) (Scalar.select (IntOp.cmpi .eq (k0_pay2 (F := Ideal) lt y) 10#32) (sc l10 y) (Scalar.select (IntOp.cmpi .eq (k0_pay2 (F := Ideal) lt y) 9#32) (sc l9 y) (Scalar.select (IntOp.cmpi .eq (k0_pay2 (F := Ideal) lt y) 8#32) (sc l8 y) (Scalar.select (IntOp.cmpi .eq (k0_pay2 (F := Ideal) lt y) 7#32) (sc l7 y) (Scalar.select (IntOp.cmpi .eq (k0_pay2 (F := Ideal) lt y) 6#32) (sc l6 y) (Scalar.select (IntOp.cmpi .eq (k0_pay2 (F := Ideal) lt y) 5#32) (sc l5 y) (Scalar.select (IntOp.cmpi .eq (k0_pay2 (F := Ideal) lt y) 4#32) (sc l4 y) (Scalar.select (IntOp.cmpi .eq (k0_pay2 (F := Ideal) lt y) 3#32) (sc l3 y) (Scalar.select (IntOp.cmpi .eq (k0_pay2 (F := Ideal) lt y) 2#32) (sc l2 y) (Scalar.select (IntOp.cmpi .eq (k0_pay2 (F := Ideal) lt y) 1#32) (sc l1 y) (Scalar.select (IntOp.cmpi .eq (k0_pay2 (F := Ideal) lt y) 0#32) (sc l0 y) (Ideal.ofBits .f32 0x00000000#32))))))))))))))))))))) := rfl

/-- The running sum of shifted exponentials after the first 17 classes. -/
abbrev sumv17 : FVec Ideal S256x512 .f32 :=
  k0_pay39 (maxv l0 l1 l2 l3 l4 l5 l6 l7 l8 l9 l10 l11 l12 l13 l14 l15 l16 l17 l18 l19 l20) (k0_pay38 (maxv l0 l1 l2 l3 l4 l5 l6 l7 l8 l9 l10 l11 l12 l13 l14 l15 l16 l17 l18 l19 l20) (k0_pay37 (k0_pay3 (F := Ideal)) (k0_pay32 (k0_pay25 (k0_pay16 (k0_pay9 l0 l1 l2 l3) l4 l5 l6 l7 l8) l9 l10 l11 l12 l13 l14) l15 l16 l17 l18 l19) l20 l0 l1 l2 l3 l4) l5 l6 l7 l8 l9 l10) l11 l12 l13 l14 l15 l16

theorem sumv17_apply (y : S256x512.Idx) :
    sumv17 l0 l1 l2 l3 l4 l5 l6 l7 l8 l9 l10 l11 l12 l13 l14 l15 l16 l17 l18 l19 l20 y = List.foldl (· + ·) (Ideal.ofBits .f32 0x00000000#32) [Ideal.exp (sc l0 y - maxv l0 l1 l2 l3 l4 l5 l6 l7 l8 l9 l10 l11 l12 l13 l14 l15 l16 l17 l18 l19 l20 y), Ideal.exp (sc l1 y - maxv l0 l1 l2 l3 l4 l5 l6 l7 l8 l9 l10 l11 l12 l13 l14 l15 l16 l17 l18 l19 l20 y), Ideal.exp (sc l2 y - maxv l0 l1 l2 l3 l4 l5 l6 l7 l8 l9 l10 l11 l12 l13 l14 l15 l16 l17 l18 l19 l20 y), Ideal.exp (sc l3 y - maxv l0 l1 l2 l3 l4 l5 l6 l7 l8 l9 l10 l11 l12 l13 l14 l15 l16 l17 l18 l19 l20 y), Ideal.exp (sc l4 y - maxv l0 l1 l2 l3 l4 l5 l6 l7 l8 l9 l10 l11 l12 l13 l14 l15 l16 l17 l18 l19 l20 y), Ideal.exp (sc l5 y - maxv l0 l1 l2 l3 l4 l5 l6 l7 l8 l9 l10 l11 l12 l13 l14 l15 l16 l17 l18 l19 l20 y), Ideal.exp (sc l6 y - maxv l0 l1 l2 l3 l4 l5 l6 l7 l8 l9 l10 l11 l12 l13 l14 l15 l16 l17 l18 l19 l20 y), Ideal.exp (sc l7 y - maxv l0 l1 l2 l3 l4 l5 l6 l7 l8 l9 l10 l11 l12 l13 l14 l15 l16 l17 l18 l19 l20 y), Ideal.exp (sc l8 y - maxv l0 l1 l2 l3 l4 l5 l6 l7 l8 l9 l10 l11 l12 l13 l14 l15 l16 l17 l18 l19 l20 y), Ideal.exp (sc l9 y - maxv l0 l1 l2 l3 l4 l5 l6 l7 l8 l9 l10 l11 l12 l13 l14 l15 l16 l17 l18 l19 l20 y), Ideal.exp (sc l10 y - maxv l0 l1 l2 l3 l4 l5 l6 l7 l8 l9 l10 l11 l12 l13 l14 l15 l16 l17 l18 l19 l20 y), Ideal.exp (sc l11 y - maxv l0 l1 l2 l3 l4 l5 l6 l7 l8 l9 l10 l11 l12 l13 l14 l15 l16 l17 l18 l19 l20 y), Ideal.exp (sc l12 y - maxv l0 l1 l2 l3 l4 l5 l6 l7 l8 l9 l10 l11 l12 l13 l14 l15 l16 l17 l18 l19 l20 y), Ideal.exp (sc l13 y - maxv l0 l1 l2 l3 l4 l5 l6 l7 l8 l9 l10 l11 l12 l13 l14 l15 l16 l17 l18 l19 l20 y), Ideal.exp (sc l14 y - maxv l0 l1 l2 l3 l4 l5 l6 l7 l8 l9 l10 l11 l12 l13 l14 l15 l16 l17 l18 l19 l20 y), Ideal.exp (sc l15 y - maxv l0 l1 l2 l3 l4 l5 l6 l7 l8 l9 l10 l11 l12 l13 l14 l15 l16 l17 l18 l19 l20 y), Ideal.exp (sc l16 y - maxv l0 l1 l2 l3 l4 l5 l6 l7 l8 l9 l10 l11 l12 l13 l14 l15 l16 l17 l18 l19 l20 y)] := rfl

/-- The loss at a pixel from the remapped label `t`, the greatest logit `m`, the labelled logit `xt` and the sum `s`. -/
def ploss (t : BitVec 32) (m xt s : EReal) : EReal :=
  ((Ideal.ofBits .f32 0x00000000#32 - (Ideal.ofBits .f32 0x3F800000#32 - Ideal.exp (xt - m - Ideal.log s)) * (Ideal.ofBits .f32 0x3F800000#32 - Ideal.exp (xt - m - Ideal.log s))) * (xt - m - Ideal.log s))
    * Scalar.sitofp (F := Ideal) .f32 ((IntOp.cmpi .ne t 255#32).setWidth 32)

/-- With the label a class, the greatest logit, the labelled logit and the sum as in the specification, it is the specification's loss. -/
theorem ploss_eq (a : Fin 21 → EReal) (t : BitVec 32) (h : t ≠ 255#32) (k : Fin 21) :
    ploss t (vmax a) (a k) (vsum a) = focal a k := by
  unfold ploss focal logpt
  rw [mask_one h, Ideal.ofBits_zero_f32, ofBits_one, EReal.coe_one, mul_one]

/-- The pixel's loss as the body computes it, when each class plane reads the logit `a c` at the pixel and the remapped
    label there is the class word `t`: the specification's loss of the logits `a` at class `t`. -/
theorem point_eq (y : S256x512.Idx) (a : Fin 21 → EReal) (t : BitVec 32)
    (h0 : sc l0 y = a 0) (h1 : sc l1 y = a 1) (h2 : sc l2 y = a 2) (h3 : sc l3 y = a 3) (h4 : sc l4 y = a 4)
    (h5 : sc l5 y = a 5) (h6 : sc l6 y = a 6) (h7 : sc l7 y = a 7) (h8 : sc l8 y = a 8) (h9 : sc l9 y = a 9)
    (h10 : sc l10 y = a 10) (h11 : sc l11 y = a 11) (h12 : sc l12 y = a 12) (h13 : sc l13 y = a 13) (h14 : sc l14 y = a 14)
    (h15 : sc l15 y = a 15) (h16 : sc l16 y = a 16) (h17 : sc l17 y = a 17) (h18 : sc l18 y = a 18) (h19 : sc l19 y = a 19)
    (h20 : sc l20 y = a 20)
    (ht : k0_pay2 (F := Ideal) lt y = t) (htr : t.toNat < 21) (hne : t ≠ 255#32) :
    ploss (k0_pay2 (F := Ideal) lt y) (maxv l0 l1 l2 l3 l4 l5 l6 l7 l8 l9 l10 l11 l12 l13 l14 l15 l16 l17 l18 l19 l20 y)
        (pickv l0 l1 l2 l3 l4 l5 l6 l7 l8 l9 l10 l11 l12 l13 l14 l15 l16 l17 l18 l19 l20 lt y)
        (sumv17 l0 l1 l2 l3 l4 l5 l6 l7 l8 l9 l10 l11 l12 l13 l14 l15 l16 l17 l18 l19 l20 y
          + Ideal.exp (sc l17 y - maxv l0 l1 l2 l3 l4 l5 l6 l7 l8 l9 l10 l11 l12 l13 l14 l15 l16 l17 l18 l19 l20 y)
          + Ideal.exp (sc l18 y - maxv l0 l1 l2 l3 l4 l5 l6 l7 l8 l9 l10 l11 l12 l13 l14 l15 l16 l17 l18 l19 l20 y)
          + Ideal.exp (sc l19 y - maxv l0 l1 l2 l3 l4 l5 l6 l7 l8 l9 l10 l11 l12 l13 l14 l15 l16 l17 l18 l19 l20 y)
          + Ideal.exp (sc l20 y - maxv l0 l1 l2 l3 l4 l5 l6 l7 l8 l9 l10 l11 l12 l13 l14 l15 l16 l17 l18 l19 l20 y))
      = focal a (cls t) := by
  have hm : maxv l0 l1 l2 l3 l4 l5 l6 l7 l8 l9 l10 l11 l12 l13 l14 l15 l16 l17 l18 l19 l20 y = vmax a := by
    rw [maxv_apply, h0, h1, h2, h3, h4, h5, h6, h7, h8, h9, h10, h11, h12, h13, h14, h15, h16, h17, h18, h19, h20]
    exact vmax_chain a
  have hp : pickv l0 l1 l2 l3 l4 l5 l6 l7 l8 l9 l10 l11 l12 l13 l14 l15 l16 l17 l18 l19 l20 lt y = a (cls t) := by
    rw [pickv_apply, ht, h0, h1, h2, h3, h4, h5, h6, h7, h8, h9, h10, h11, h12, h13, h14, h15, h16, h17, h18, h19, h20]
    exact pick_eq t htr _ a
  have hs : sumv17 l0 l1 l2 l3 l4 l5 l6 l7 l8 l9 l10 l11 l12 l13 l14 l15 l16 l17 l18 l19 l20 y
      = List.foldl (· + ·) (Ideal.ofBits .f32 0x00000000#32) [Ideal.exp (a 0 - vmax a), Ideal.exp (a 1 - vmax a), Ideal.exp (a 2 - vmax a),
          Ideal.exp (a 3 - vmax a), Ideal.exp (a 4 - vmax a), Ideal.exp (a 5 - vmax a), Ideal.exp (a 6 - vmax a), Ideal.exp (a 7 - vmax a),
          Ideal.exp (a 8 - vmax a), Ideal.exp (a 9 - vmax a), Ideal.exp (a 10 - vmax a), Ideal.exp (a 11 - vmax a), Ideal.exp (a 12 - vmax a),
          Ideal.exp (a 13 - vmax a), Ideal.exp (a 14 - vmax a), Ideal.exp (a 15 - vmax a), Ideal.exp (a 16 - vmax a)] := by
    rw [sumv17_apply, hm, h0, h1, h2, h3, h4, h5, h6, h7, h8, h9, h10, h11, h12, h13, h14, h15, h16]
  rw [hs, hp, hm, ht, h17, h18, h19, h20]
  have hv : List.foldl (· + ·) (Ideal.ofBits .f32 0x00000000#32) [Ideal.exp (a 0 - vmax a), Ideal.exp (a 1 - vmax a), Ideal.exp (a 2 - vmax a),
          Ideal.exp (a 3 - vmax a), Ideal.exp (a 4 - vmax a), Ideal.exp (a 5 - vmax a), Ideal.exp (a 6 - vmax a), Ideal.exp (a 7 - vmax a),
          Ideal.exp (a 8 - vmax a), Ideal.exp (a 9 - vmax a), Ideal.exp (a 10 - vmax a), Ideal.exp (a 11 - vmax a), Ideal.exp (a 12 - vmax a),
          Ideal.exp (a 13 - vmax a), Ideal.exp (a 14 - vmax a), Ideal.exp (a 15 - vmax a), Ideal.exp (a 16 - vmax a)]
        + Ideal.exp (a 17 - vmax a) + Ideal.exp (a 18 - vmax a) + Ideal.exp (a 19 - vmax a) + Ideal.exp (a 20 - vmax a) = vsum a :=
    vsum_chain (fun c => Ideal.exp (a c - vmax a))
  rw [hv]
  exact ploss_eq a t hne (cls t)

/-- The last payload of the body's arithmetic: the lane sums of the pixel losses. -/
theorem lanes_apply (v5 : IVec S256x512 32) (v151 v154 v256 : FVec Ideal S256x512 .f32) (l17 l18 l19 l20 : LV) (r : Fin 256) :
    k0_pay40 v5 v151 v154 v256 l17 l18 l19 l20 (ix1 r) =
      ∑ w : Fin 512, ploss (v5 (ix2 r w)) (v151 (ix2 r w)) (v154 (ix2 r w))
        (v256 (ix2 r w) + Ideal.exp (sc l17 (ix2 r w) - v151 (ix2 r w)) + Ideal.exp (sc l18 (ix2 r w) - v151 (ix2 r w))
          + Ideal.exp (sc l19 (ix2 r w) - v151 (ix2 r w)) + Ideal.exp (sc l20 (ix2 r w) - v151 (ix2 r w))) := by
  unfold k0_pay40
  refine (Ideal.multiReduction_add_single _ _ _ _ _ _).trans ?_
  refine Finset.sum_congr rfl fun w _ => ?_
  have e : reduces_S256x512_S256.lift (ix1 r) w = ix2 r w := by
    funext a; match a with
    | ⟨0, _⟩ => rfl
    | ⟨1, _⟩ => rfl
  rw [e]; rfl

/-- The row sum and the splat: every entry of the output tile is the sum of the 256 lane sums. -/
theorem rows_apply (v296 : FVec Ideal S256 .f32) (y : S8x128.Idx) :
    k0_pay1 v296 y = ∑ r : Fin 256, v296 (ix1 r) := by
  unfold k0_pay1
  rw [broadcastTo_apply _ _ y (ix2 (0 : Fin 1) (0 : Fin 1)) (fun a => by match a with | ⟨0, _⟩ => rfl | ⟨1, _⟩ => rfl)]
  rw [shapeCast_self]
  rw [shapeCast_apply _ _ (ix2 (0 : Fin 1) (0 : Fin 1)) (ix1 (0 : Fin 1)) (by rw [Shape.rowMajor_val_one, Shape.rowMajor_val_two]; rfl)]
  refine (Ideal.multiReduction_add_total _ _ _ (fun b => by match b with | ⟨0, _⟩ => rfl) _ _ _).trans ?_
  rw [sum_idx2]
  refine Finset.sum_congr rfl fun r _ => ?_
  rw [Fin.sum_univ_one]
  exact shapeCast_apply _ _ _ _ (by rw [Shape.rowMajor_val_one, Shape.rowMajor_val_two]; show r.val = r.val * 1 + 0; omega)

end Cert.KernelIdeal.Point

end
-- ==== Proof.KernelTile.lean ====
/-
  What one grid point leaves in its [8, 128] output tile, as a function of the point's two input blocks: every entry
  is the sum, over the 256 × 512 pixels of the block, of the specification's per-pixel loss of the block's logits
  x0[0, ·, r, w] at the class of the remapped label x1[0, r, w] — provided every label of the block is in the label
  range. The class planes are read through rectangles at class offset c of the [1, 21, 256, 512] block, each viewed
  [256, 512]; the label block [1, 256, 512] likewise.
-/
import proofs.«420474_j10754598109558_3_alg».proof.Proof.KernelPoint

noncomputable section

namespace Cert.KernelIdeal.Tile

open Cert.KernelIdeal Cert.KernelIdeal.Gen Idealize.ShloMosaic Idealize.ShloMosaic.ValueIdx Cert.Focal Cert.KernelIdeal.Point

/-- Class plane `c` of a logits block, viewed [256, 512], reads the block at (0, c, r, w). -/
theorem plane_apply (x0 : Vec Ideal S1x21x256x512 .f32) (c : ℕ) (hc : c < 21)
    (inb : ∀ a, (![0, c, 0, 0] : Fin S1x21x256x512.rank → ℕ) a + S1x1x256x512.size a ≤ S1x21x256x512.size a) (r : Fin 256) (w : Fin 512) :
    sc (View.ld x0 (Rect.unit (s := S1x21x256x512) ![0, c, 0, 0] S1x1x256x512.size inb)) (ix2 r w)
      = x0 (ix4 (0 : Fin 1) (⟨c, hc⟩ : Fin 21) r w) := by
  refine (shapeCast_apply _ _ (ix2 r w) (ix4 (0 : Fin 1) (0 : Fin 1) r w) (by
    rw [Shape.rowMajor_val_four, Shape.rowMajor_val_two]
    show ((0 * 1 + 0) * 256 + r.val) * 512 + w.val = r.val * 512 + w.val
    omega)).trans ?_
  show x0 _ = x0 _
  refine congrArg x0 (funext fun a => Fin.ext ?_)
  match a with
  | ⟨0, _⟩ => show (0 : ℕ) + 1 * 0 = 0; rfl
  | ⟨1, _⟩ => show c + 1 * 0 = c; omega
  | ⟨2, _⟩ => show (0 : ℕ) + 1 * r.val = r.val; omega
  | ⟨3, _⟩ => show (0 : ℕ) + 1 * w.val = w.val; omega

/-- The remapped label of a label block, viewed [256, 512], at (r, w). -/
theorem labels_apply (x1 : Vec Ideal S1x256x512 .i32) (r : Fin 256) (w : Fin 512) :
    k0_pay2 (F := Ideal) (View.ld x1 r0_0) (ix2 r w) = remap (x1 (ix3 (0 : Fin 1) r w)) := by
  have e : shapeCast S256x512 (View.ld x1 r0_0) shapeCasts_S1x256x512_S256x512 (ix2 r w) = x1 (ix3 (0 : Fin 1) r w) := by
    rw [View.ld_unit_zero (S := S1x256x512) (by funext a; match a with | ⟨0, _⟩ => rfl | ⟨1, _⟩ => rfl | ⟨2, _⟩ => rfl)]
    exact shapeCast_1ab_ab_apply x1 _ r w
  show Scalar.select (IntOp.cmpi .eq (shapeCast S256x512 (View.ld x1 r0_0) shapeCasts_S1x256x512_S256x512 (ix2 r w)) 255#32) 0#32
      (shapeCast S256x512 (View.ld x1 r0_0) shapeCasts_S1x256x512_S256x512 (ix2 r w)) = _
  rw [e, remap_apply]

/-- The sum of the per-pixel losses over one block. -/
def tile (x0 : Vec Ideal S1x21x256x512 .f32) (x1 : Vec Ideal S1x256x512 .i32) : EReal :=
  ∑ r : Fin 256, ∑ w : Fin 512, focal (fun c : Fin 21 => x0 (ix4 (0 : Fin 1) c r w)) (cls (remap (x1 (ix3 (0 : Fin 1) r w))))

/-- Every entry of the output tile is the block's sum. -/
theorem out_eq (x0 : Vec Ideal S1x21x256x512 .f32) (x1 : Vec Ideal S1x256x512 .i32) (hT : ∀ i, InRange (x1 i)) (y : S8x128.Idx) :
    out0_2 x0 x1 y = tile x0 x1 := by
  unfold out0_2
  rw [View.canon_unit_zero (S := S8x128) (by funext a; match a with | ⟨0, _⟩ => rfl | ⟨1, _⟩ => rfl)]
  rw [rows_apply]
  unfold tile
  refine Finset.sum_congr rfl fun r _ => ?_
  rw [lanes_apply]
  refine Finset.sum_congr rfl fun w _ => ?_
  exact point_eq _ _ _ _ _ _ _ _ _ _ _ _ _ _ _ _ _ _ _ _ _ _ (ix2 r w) (fun c : Fin 21 => x0 (ix4 (0 : Fin 1) c r w)) (remap (x1 (ix3 (0 : Fin 1) r w)))
    (plane_apply x0 0 (by decide) _ r w) (plane_apply x0 1 (by decide) _ r w) (plane_apply x0 2 (by decide) _ r w)
    (plane_apply x0 3 (by decide) _ r w) (plane_apply x0 4 (by decide) _ r w) (plane_apply x0 5 (by decide) _ r w)
    (plane_apply x0 6 (by decide) _ r w) (plane_apply x0 7 (by decide) _ r w) (plane_apply x0 8 (by decide) _ r w)
    (plane_apply x0 9 (by decide) _ r w) (plane_apply x0 10 (by decide) _ r w) (plane_apply x0 11 (by decide) _ r w)
    (plane_apply x0 12 (by decide) _ r w) (plane_apply x0 13 (by decide) _ r w) (plane_apply x0 14 (by decide) _ r w)
    (plane_apply x0 15 (by decide) _ r w) (plane_apply x0 16 (by decide) _ r w) (plane_apply x0 17 (by decide) _ r w)
    (plane_apply x0 18 (by decide) _ r w) (plane_apply x0 19 (by decide) _ r w) (plane_apply x0 20 (by decide) _ r w)
    (labels_apply x1 r w) (remap_lt (hT _)) (remap_ne_ignore (hT _))

end Cert.KernelIdeal.Tile

end
-- ==== Proof.PixN.lean ====
/-
  The per-pixel loss with the pixel's coordinates as natural numbers (0 outside the 8 × 512 × 512 image), so that a
  position computed by division and remainder names a pixel without carrying a bound; the total as the triple sum of
  it; and, on finite logits, that each pixel's loss and the total are real numbers.
-/
import proofs.«420474_j10754598109558_3_alg».proof.Proof.SpecLemmas

noncomputable section

namespace Cert.Focal

open Idealize.ShloMosaic Idealize.ShloMosaic.ValueIdx

/-- The loss of pixel (b, h, w), coordinates as natural numbers. -/
def pixN (X : SX.Idx → EReal) (T : ST.Idx → BitVec 32) (b h w : ℕ) : EReal :=
  if hb : b < 8 ∧ h < 512 ∧ w < 512 then pix X T ⟨b, hb.1⟩ ⟨h, hb.2.1⟩ ⟨w, hb.2.2⟩ else 0

theorem pixN_of_lt (X : SX.Idx → EReal) (T : ST.Idx → BitVec 32) (b : Fin 8) (h w : Fin 512) :
    pixN X T b.val h.val w.val = pix X T b h w := by
  unfold pixN; rw [dif_pos ⟨b.isLt, h.isLt, w.isLt⟩]

theorem total_eq (X : SX.Idx → EReal) (T : ST.Idx → BitVec 32) :
    total X T = ∑ b : Fin 8, ∑ h : Fin 512, ∑ w : Fin 512, pixN X T b.val h.val w.val := by
  unfold total
  refine Finset.sum_congr rfl fun b _ => Finset.sum_congr rfl fun h _ => Finset.sum_congr rfl fun w _ => ?_
  rw [pixN_of_lt]

variable (X : SX.Idx → EReal) (T : ST.Idx → BitVec 32) (hX : ∀ i, ∃ r : ℝ, X i = ((r : ℝ) : EReal))
include hX

/-- On finite logits a pixel's loss is a real number. -/
theorem pix_real (b : Fin 8) (h w : Fin 512) : ∃ l : ℝ, pix X T b h w = ((l : ℝ) : EReal) := by
  unfold pix
  have e : logits X b h w = fun c => (((fun c => (hX (ix4 b c h w)).choose) c : ℝ) : EReal) := by
    funext c; exact (hX (ix4 b c h w)).choose_spec
  rw [e]
  exact focal_real _ _

theorem pixN_real (b h w : ℕ) : ∃ l : ℝ, pixN X T b h w = ((l : ℝ) : EReal) := by
  unfold pixN
  split
  · exact pix_real X T hX _ _ _
  · exact ⟨0, by simp⟩

/-- On finite logits the total is a real number. -/
theorem total_real : ∃ R : ℝ, total X T = ((R : ℝ) : EReal) := by
  refine ⟨∑ b : Fin 8, ∑ h : Fin 512, ∑ w : Fin 512, (pix_real X T hX b h w).choose, ?_⟩
  unfold total
  rw [← coe_sum]
  refine Finset.sum_congr rfl fun b _ => ?_
  rw [← coe_sum]
  refine Finset.sum_congr rfl fun h _ => ?_
  rw [← coe_sum]
  refine Finset.sum_congr rfl fun w _ => ?_
  exact (pix_real X T hX b h w).choose_spec

end Cert.Focal

end
-- ==== Proof.KernelArray.lean ====
/-
  The kernel's [64, 256] output array after the run, as one function of the two argument arrays.

  Grid point t = (i, j) stages image i's rows 256 j … 256 j + 255: the logits block X[i, ·, 256 j + r, w], the label
  block T[i, 256 j + r, w], and writes back the [8, 128] tile at rows 8 i …, columns 128 j … of the output array. So
  the entry (p, q) of the output array is the sum of the per-pixel losses over image p / 8, rows 256 (q / 128) + r.
  The tiles cover the array: entry (p, q) is in the tile of the point with block indices (p / 8, q / 128).
-/
import proofs.«420474_j10754598109558_3_alg».proof.Proof.KernelTile
import proofs.«420474_j10754598109558_3_alg».proof.Proof.PixN

noncomputable section

namespace Cert.KernelIdeal.Arr

open Cert.KernelIdeal Cert.KernelIdeal.Gen Idealize.ShloMosaic Idealize.ShloMosaic.TcCoe Idealize.ShloMosaic.ValueIdx Cert.Focal
open Idealize.SL.Sem

/-- The sum of the losses over image `i`, rows 256 j … 256 j + 255. -/
def tileN (X : Vec Ideal S8x21x512x512 .f32) (T : Vec Ideal S8x512x512 .i32) (i j : ℕ) : EReal :=
  ∑ r : Fin 256, ∑ w : Fin 512, pixN X T i (j * 256 + r.val) w.val

/-- The output array: constant on each [8, 128] tile. -/
def Gout (X : Vec Ideal S8x21x512x512 .f32) (T : Vec Ideal S8x512x512 .i32) : Vec Ideal S64x256 .f32 :=
  fun i => tileN X T ((i 0).val / 8) ((i 1).val / 128)

variable (m : (ℓ : Loc nD τ sig) → Buf (Elt Ideal) ℓ)

/-- The printed index maps, decided over the grid: the two input windows move with the output window (image = the
    output's row block, row half = the output's column block), and the output's block indices stay in their ranges. -/
theorem idx_facts : ∀ t : Fin cfg0.N,
    win0_0.index t (0 : Fin 4) = win0_2.index t (0 : Fin 2) ∧ win0_0.index t (1 : Fin 4) = 0
    ∧ win0_0.index t (2 : Fin 4) = win0_2.index t (1 : Fin 2) ∧ win0_0.index t (3 : Fin 4) = 0
    ∧ win0_1.index t (0 : Fin 3) = win0_2.index t (0 : Fin 2) ∧ win0_1.index t (1 : Fin 3) = win0_2.index t (1 : Fin 2)
    ∧ win0_1.index t (2 : Fin 3) = 0
    ∧ win0_2.index t (0 : Fin 2) ≤ 7 ∧ win0_2.index t (1 : Fin 2) ≤ 1 :=
  (by decide +kernel : ∀ t : Fin grid0.N, _)

/-- Every tile of the array is some point's. -/
theorem idx_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- The logits block of point `t` read at (0, c, r, w) is the argument array at (image, c, 256 · half + r, w). -/
theorem logits_blk (c : Dev nD) (t : Fin cfg0.N) (k : Fin 21) (r : Fin 256) (w : Fin 512)
    (hi : win0_2.index t (0 : Fin 2) < 8) (hj : win0_2.index t (1 : Fin 2) * 256 + r.val < 512) :
    iblk m c 0 t (ix4 (0 : Fin 1) k r w)
      = V m c main_arg0 (ix4 (⟨win0_2.index t (0 : Fin 2), hi⟩ : Fin 8) k (⟨win0_2.index t (1 : Fin 2) * 256 + r.val, hj⟩ : Fin 512) w) := by
  obtain ⟨e0, e1, e2, e3, -⟩ := idx_facts t
  show V m c main_arg0 (((cfg0.win 0).blk t).view.emb (ix4 (0 : Fin 1) k r w)) = _
  refine congrArg (V m c main_arg0) (funext fun a => Fin.ext ?_)
  match a with
  | ⟨0, _⟩ => show win0_0.index t (0 : Fin 4) * 1 + 1 * 0 = win0_2.index t (0 : Fin 2); omega
  | ⟨1, _⟩ => show win0_0.index t (1 : Fin 4) * 21 + 1 * k.val = k.val; omega
  | ⟨2, _⟩ => show win0_0.index t (2 : Fin 4) * 256 + 1 * r.val = win0_2.index t (1 : Fin 2) * 256 + r.val; omega
  | ⟨3, _⟩ => show win0_0.index t (3 : Fin 4) * 512 + 1 * w.val = w.val; omega

/-- The label block of point `t` read at (0, r, w) is the argument array at (image, 256 · half + r, w). -/
theorem labels_blk (c : Dev nD) (t : Fin cfg0.N) (r : Fin 256) (w : Fin 512)
    (hi : win0_2.index t (0 : Fin 2) < 8) (hj : win0_2.index t (1 : Fin 2) * 256 + r.val < 512) :
    iblk m c 1 t (ix3 (0 : Fin 1) r w)
      = V m c main_arg1 (ix3 (⟨win0_2.index t (0 : Fin 2), hi⟩ : Fin 8) (⟨win0_2.index t (1 : Fin 2) * 256 + r.val, hj⟩ : Fin 512) w) := by
  obtain ⟨-, -, -, -, e4, e5, e6, -⟩ := idx_facts t
  show V m c main_arg1 (((cfg0.win 1).blk t).view.emb (ix3 (0 : Fin 1) r w)) = _
  refine congrArg (V m c main_arg1) (funext fun a => Fin.ext ?_)
  match a with
  | ⟨0, _⟩ => show win0_1.index t (0 : Fin 3) * 1 + 1 * 0 = win0_2.index t (0 : Fin 2); omega
  | ⟨1, _⟩ => show win0_1.index t (1 : Fin 3) * 256 + 1 * r.val = win0_2.index t (1 : Fin 2) * 256 + r.val; omega
  | ⟨2, _⟩ => show win0_1.index t (2 : Fin 3) * 512 + 1 * w.val = w.val; omega

/-- Every label of a staged block is a label of the argument array. -/
theorem labels_blk_mem (c : Dev nD) (t : Fin cfg0.N) (y) : ∃ i, iblk m c 1 t y = V m c main_arg1 i :=
  ⟨((cfg0.win 1).blk t).view.emb y, rfl⟩

/-- WHAT POINT `t` WRITES BACK is block `t` of `Gout` of the argument arrays, when every label is in the label range. -/
theorem flushed_eq (c : Dev nD) (hT : ∀ i, InRange (V m c main_arg1 i)) (t : Fin cfg0.N) :
    (dats m 0 c).flushed 2 t = ((cfg0.win 2).blk t).view.read (Elt Ideal) (Gout (V m c main_arg0) (V m c main_arg1)) := by
  show (cfg0.win 2).cut (grid0.coords t) ((dats m 0 c).after 2 t) = _
  rw [after0_2]
  obtain ⟨-, -, -, -, -, -, -, b0, b1⟩ := idx_facts t
  funext y
  show out0_2 (iblk m c 0 t) (iblk m c 1 t) y = Gout (V m c main_arg0) (V m c main_arg1) (((cfg0.win 2).blk t).view.emb y)
  rw [Tile.out_eq _ _ (fun i => by obtain ⟨i', h'⟩ := labels_blk_mem m c t i; rw [h']; exact hT i') y]
  have hy0 : (y 0).val < 8 := (y 0).isLt
  have hy1 : (y 1).val < 128 := (y 1).isLt
  have q0 : ((((cfg0.win 2).blk t).view.emb y) 0).val / 8 = win0_2.index t (0 : Fin 2) := by
    show (win0_2.index t (0 : Fin 2) * 8 + 1 * (y 0).val) / 8 = _; omega
  have q1 : ((((cfg0.win 2).blk t).view.emb y) 1).val / 128 = win0_2.index t (1 : Fin 2) := by
    show (win0_2.index t (1 : Fin 2) * 128 + 1 * (y 1).val) / 128 = _; omega
  unfold Gout
  rw [q0, q1]
  unfold Tile.tile tileN
  refine Finset.sum_congr rfl fun r _ => Finset.sum_congr rfl fun w _ => ?_
  have hi : win0_2.index t (0 : Fin 2) < 8 := by omega
  have hj : win0_2.index t (1 : Fin 2) * 256 + r.val < 512 := by have := r.isLt; omega
  unfold pixN
  rw [dif_pos ⟨hi, hj, w.isLt⟩]
  unfold pix logits label
  rw [labels_blk m c t r w hi hj]
  refine congrArg (fun f => focal f _) (funext fun k => ?_)
  exact logits_blk m c t k r w hi hj

/-- An index of the array is in point `t`'s tile iff each coordinate is in the tile's range on its axis. -/
theorem mem_blk (t : Fin cfg0.N) (i : S64x256.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The tiles cover the array. -/
theorem cover (i : S64x256.Idx) : ∃ t : Fin cfg0.N, (cfg0.win 2).flush t = true ∧ i ∈ ((cfg0.win 2).blk t).view.set := by
  have hi0 : (i 0).val < 64 := (i 0).isLt
  have hi1 : (i 1).val < 256 := (i 1).isLt
  obtain ⟨t, ht⟩ := idx_onto ⟨(i 0).val / 8, by omega⟩ ⟨(i 1).val / 128, by omega⟩
  have q0 : win0_2.index t (0 : Fin 2) = (i 0).val / 8 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- THE ARRAY after the run. -/
theorem final (c : Dev nD) (hT : ∀ i, InRange (V m c main_arg1 i)) :
    (dats m 0 c).arrAt 2 cfg0.N = Gout (V m c main_arg0) (V m c main_arg1) :=
  (dats m 0 c).arrAt_eq_of_cover 2 _ (fun t _ => flushed_eq m c hT t) cover

end Cert.KernelIdeal.Arr

end
-- ==== Proof.Sums.lean ====
/-
  Re-indexing of finite sums over an additive commutative monoid.

  A position n below a·b names the pair (n / b, n % b), and every pair below (a, b) is named once: a sum over positions is
  the double sum over pairs. Three consequences: a row-major position in an 8 × 512 × 512 array names its pixel; a sum over
  an array made of constant tiles is the tile size times the sum of the tiles' values; a sum over two blocks of 256 rows is
  the sum over the 512 rows.
-/
import Mathlib.Algebra.BigOperators.Fin

namespace Cert.Focal

variable {M : Type} [AddCommMonoid M]

/-- A position n < a·b names the pair (n / b, n % b): summing over positions is summing over pairs. -/
theorem sum_divMod (a b : ℕ) (G : ℕ → ℕ → M) :
    ∑ n : Fin (a * b), G (n.val / b) (n.val % b) = ∑ i : Fin a, ∑ j : Fin b, G i.val j.val := by
  rw [← Fintype.sum_prod_type' (fun (i : Fin a) (j : Fin b) => G i.val j.val)]
  refine (Fintype.sum_equiv finProdFinEquiv _ _ ?_).symm
  rintro ⟨i, j⟩
  have hj := j.isLt
  have hb : 0 < b := by omega
  have e1 : (j.val + b * i.val) / b = i.val := by
    rw [Nat.add_mul_div_left _ _ hb, Nat.div_eq_of_lt hj, zero_add]
  have e2 : (j.val + b * i.val) % b = j.val := by
    rw [Nat.add_mul_mod_self_left, Nat.mod_eq_of_lt hj]
  show G i.val j.val = G ((finProdFinEquiv (i, j)).val / b) ((finProdFinEquiv (i, j)).val % b)
  rw [finProdFinEquiv_apply_val, e1, e2]

/-- A position n < a·(b·c) names the triple (n / (b·c), n / c % b, n % c). -/
theorem sum_divMod3 (a b c : ℕ) (G : ℕ → ℕ → ℕ → M) :
    ∑ n : Fin (a * (b * c)), G (n.val / (b * c)) (n.val / c % b) (n.val % c)
      = ∑ i : Fin a, ∑ j : Fin b, ∑ k : Fin c, G i.val j.val k.val := by
  have h1 := sum_divMod a (b * c) (fun i r => G i (r / c) (r % c))
  have h2 : ∀ i : Fin a, ∑ r : Fin (b * c), G i.val (r.val / c) (r.val % c) = ∑ j : Fin b, ∑ k : Fin c, G i.val j.val k.val :=
    fun i => sum_divMod b c (fun j k => G i.val j k)
  rw [← Finset.sum_congr rfl (fun i _ => h2 i), ← h1]
  refine Finset.sum_congr rfl (fun n _ => ?_)
  rw [Nat.mod_mul_left_div_self, Nat.mod_mul_left_mod]

/-- A row-major position n < 8·512·512 names the pixel (n / 262144, n / 512 % 512, n % 512): summing over positions is
    summing over pixels. -/
theorem sum_flat (G : ℕ → ℕ → ℕ → M) :
    ∑ n : Fin 2097152, G (n.val / 262144) (n.val / 512 % 512) (n.val % 512)
      = ∑ b : Fin 8, ∑ h : Fin 512, ∑ w : Fin 512, G b.val h.val w.val :=
  sum_divMod3 8 512 512 G

/-- A sum over a·b positions of a function of the quotient by b alone is b times the sum over the a quotients. -/
theorem sum_div_const (a b : ℕ) (f : ℕ → M) : ∑ p : Fin (a * b), f (p.val / b) = b • ∑ i : Fin a, f i.val := by
  rw [sum_divMod a b (fun i _ => f i), ← Finset.sum_nsmul]
  refine Finset.sum_congr rfl (fun i _ => ?_)
  rw [Finset.sum_const, Finset.card_univ, Fintype.card_fin]

/-- An [64, 256] array made of 8×128 tiles, each tile constant: its sum is 1024 times the sum of the tiles' values. -/
theorem sum_tiles (F : ℕ → ℕ → M) :
    ∑ p : Fin 64, ∑ q : Fin 256, F (p.val / 8) (q.val / 128) = 1024 • ∑ i : Fin 8, ∑ j : Fin 2, F i.val j.val := by
  have h1 : ∀ p : Fin 64, ∑ q : Fin 256, F (p.val / 8) (q.val / 128) = 128 • ∑ j : Fin 2, F (p.val / 8) j.val :=
    fun p => sum_div_const 2 128 (fun j => F (p.val / 8) j)
  rw [Finset.sum_congr rfl (fun p _ => h1 p), Finset.sum_nsmul]
  have h2 : ∑ p : Fin 64, ∑ j : Fin 2, F (p.val / 8) j.val = 8 • ∑ i : Fin 8, ∑ j : Fin 2, F i.val j.val :=
    sum_div_const 8 8 (fun i => ∑ j : Fin 2, F i j.val)
  rw [h2, ← mul_nsmul]

/-- The 512 rows of an image are two blocks of 256. -/
theorem sum_rows (H : ℕ → M) :
    ∑ j : Fin 2, ∑ r : Fin 256, H (j.val * 256 + r.val) = ∑ h : Fin 512, H h.val := by
  have h1 := sum_divMod 2 256 (fun j r => H (j * 256 + r))
  rw [← h1]
  refine Finset.sum_congr rfl (fun n _ => ?_)
  rw [Nat.div_add_mod']

end Cert.Focal
-- ==== Proof.KernelRun.lean ====
/-
  The kernel program's run, read: the host lines after the region sum the [64, 256] output array, divide by 1024 and
  by 2²¹. The array is constant on each [8, 128] tile, so its sum is 1024 times the sum of the 16 tiles' values, and
  the tiles' values — image i, rows 256 j … 256 j + 255 — add up to the total over all pixels. On finite logits the
  total is a real number, so the factor 1024 cancels against the first division: the result is the mean.
-/
import proofs.«420474_j10754598109558_3_alg».proof.Proof.KernelArray
import proofs.«420474_j10754598109558_3_alg».proof.Proof.Sums
import Idealize.ShloMosaic.Lib.StableHlo.Run
import Idealize.ShloMosaic.Lib.IdealHost

noncomputable section

namespace Cert.KernelIdeal.Run

open Cert.KernelIdeal Cert.KernelIdeal.Gen Idealize.ShloMosaic Idealize.ShloMosaic.TcCoe Idealize.ShloMosaic.ValueIdx Cert.Focal
open Idealize.SL.Sem Idealize.ShloMosaic.StableHlo

/-- The sum of the output array: 1024 copies of each tile's value, the tiles' values the total. -/
theorem sum_Gout (X : Vec Ideal S8x21x512x512 .f32) (T : Vec Ideal S8x512x512 .i32) :
    ∑ i : S64x256.Idx, Arr.Gout X T i = (1024 : ℕ) • total X T := by
  rw [sum_idx2]
  show ∑ p : Fin 64, ∑ q : Fin 256, Arr.tileN X T (p.val / 8) (q.val / 128) = _
  rw [sum_tiles (fun i j => Arr.tileN X T i j)]
  congr 1
  rw [total_eq]
  refine Finset.sum_congr rfl fun i _ => ?_
  unfold Arr.tileN
  exact sum_rows (fun h => ∑ w : Fin 512, pixN X T i.val h w.val)

/-- 1024 copies of a real, divided by 1024 and by 2²¹, is the real divided by 2²¹. -/
theorem div_copies (R : ℝ) :
    Ideal.div (Ideal.div ((1024 : ℕ) • ((R : ℝ) : EReal)) (Ideal.ofBits .f32 0x44800000#32)) (Ideal.ofBits .f32 0x4A000000#32)
      = Ideal.div ((R : ℝ) : EReal) (Ideal.ofBits .f32 0x4A000000#32) := by
  have hn : ∀ n : ℕ, (n • ((R : ℝ) : EReal)) = (((n : ℝ) * R : ℝ) : EReal) := by
    intro n
    induction n with
    | zero => simp
    | succ n ih => rw [succ_nsmul, ih, ← EReal.coe_add]; congr 1; push_cast; ring
  have h : ((1024 : ℕ) • ((R : ℝ) : EReal)) = ((1024 * R : ℝ) : EReal) := by
    rw [hn 1024]; norm_num
  rw [h, ofBits_1024, Ideal.div_coe (by norm_num : (1024 : ℝ) ≠ 0)]
  congr 1
  norm_cast
  ring

variable (m : (ℓ : Loc nD τ sig) → Buf (Elt Ideal) ℓ) (ρ : Dev nD → PrngReg)

/-- What the lines after the region leave in the result buffer. -/
theorem tail_value (c : Dev nD) (hX : ∀ i, ∃ r : ℝ, V m c main_arg0 i = ((r : ℝ) : EReal)) (hT : ∀ i, InRange (V m c main_arg1 i)) :
    Pipeline.afterTail₀ cfgs (dats m) 0 (V0 m) [hostOps1] c main_v3 = fun _ => mean (V m c main_arg0) (V m c main_arg1) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v0)
      = Arr.Gout (V m c main_arg0) (V m c main_arg1) :=
    (Pipeline.withArrays_arr spec0 launch0.win.arr_inj c _ _ 2).trans (Arr.final m c hT)
  rw [e]
  funext i
  show Ideal.div (Ideal.div (Ideal.hostReduceAdd _ (Arr.Gout (V m c main_arg0) (V m c main_arg1)) (Ideal.ofBits .f32 0x00000000#32) i)
      (Ideal.ofBits .f32 0x44800000#32)) (Ideal.ofBits .f32 0x4A000000#32) = _
  rw [Ideal.hostReduceAdd_total _ (fun b => b.elim0), sum_Gout, Ideal.ofBits_zero_f32, zero_add]
  obtain ⟨R, hR⟩ := total_real (V m c main_arg0) (V m c main_arg1) hX
  unfold mean
  rw [hR]
  exact div_copies R

/-- The result buffer is no window's array. -/
theorem result_rest : main_v3 ∈ Pipeline.restRefs sig spec0 := by
  refine Pipeline.mem_restRefs_of main_v3 rfl (fun w => ?_)
  fin_cases w <;> decide

/-- THE RUN, READ: on finite logits and in-range labels the result buffer ends at the mean of the argument arrays, the
    arguments unchanged. -/
theorem run (hX : ∀ (c : Dev nD) i, ∃ r : ℝ, V m c main_arg0 i = ((r : ℝ) : EReal)) (hT : ∀ (c : Dev nD) i, InRange (V m c main_arg1 i)) :
    θ_run defs (onTc (τ := τ) (main (F := Ideal))) ⟨m, fun _ => 0, ρ⟩ fun r => ∀ c : Dev nD,
      r.2.mem ((c.tc : Thread nD τ).loc main_v3) = (fun _ => mean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 result_rest).trans (tail_value m c (hX c) (hT c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.RefPixel.lean ====
/-
  The reference program's stage just before its final sum, read at one flat position.

  The reference reshapes the logits [8, 21, 512, 512] to a matrix [2097152, 21] (reshape, transpose, reshape): row p is
  the pixel (p / 262144, p / 512 % 512, p % 512) and column c its class-c logit; the labels [8, 512, 512] reshape to
  [2097152] the same way. On a row the log-softmax is x_c - m - log s with m the greatest logit (a max-reduce from -∞,
  and a maximum with -∞ that changes nothing) and s the sum of the shifted exponentials (a sum-reduce from 0). The
  labelled class is picked by a gather along the class axis: the remapped label is a class 0 … 20, so the sign test does
  not fire, the range mask (an 'and' over an axis of size 1) is set, the clamp is the identity, and the select never takes
  its other branch. Then exp, 1 - p, the power 2, the negation, the product with log p and the product with the ignore
  mask (1, since a remapped label is never the ignore label): on finite logits that is the pixel's focal loss.
-/
import proofs.«420474_j10754598109558_3_alg».proof.Proof.RefRead
import proofs.«420474_j10754598109558_3_alg».proof.Proof.PixN
import Idealize.ShloMosaic.PureOps.Reduce
import Idealize.ShloMosaic.PureOps.Ideal.Laws

noncomputable section

namespace Cert.ReferenceIdeal.RefPixel

open Cert.ReferenceIdeal Cert.ReferenceIdeal.Gen Cert.ReferenceIdeal.ReadP Idealize.ShloMosaic Idealize.ShloMosaic.ValueIdx Cert.Focal

/-! ## The pixel of a flat position -/

/-- Reshape, transpose, reshape on flat positions: row `N`, column `c` of the [2097152, 21] matrix comes from image
    `N / 262144`, class `c`, row `N / 512 % 512`, column `N % 512`. -/
theorem flat_coords (N c : ℕ) (hN : N < 2097152) (hc : c < 21) :
    (((N * 21 + c) / 5505024 * 21 + (N * 21 + c) % 21) * 262144 + (N * 21 + c) / 21 % 262144) / 5505024 = N / 262144
    ∧ (((N * 21 + c) / 5505024 * 21 + (N * 21 + c) % 21) * 262144 + (N * 21 + c) / 21 % 262144) / 262144 % 21 = c
    ∧ (((N * 21 + c) / 5505024 * 21 + (N * 21 + c) % 21) * 262144 + (N * 21 + c) / 21 % 262144) / 512 % 512 = N / 512 % 512
    ∧ (((N * 21 + c) / 5505024 * 21 + (N * 21 + c) % 21) * 262144 + (N * 21 + c) / 21 % 262144) % 512 = N % 512 := by
  have h1 : (N * 21 + c) / 21 = N := by omega
  have h2 : (N * 21 + c) % 21 = c := by omega
  have h3 : (N * 21 + c) / 5505024 = N / 262144 := by omega
  rw [h1, h2, h3]
  have h5 : ((N / 262144 * 21 + c) * 262144 + N % 262144) / 262144 = N / 262144 * 21 + c := by omega
  have h6 : ((N / 262144 * 21 + c) * 262144 + N % 262144) / 512 = (N / 262144 * 21 + c) * 512 + N % 262144 / 512 := by omega
  have h7 : N / 512 = N / 262144 * 512 + N % 262144 / 512 := by omega
  refine ⟨by omega, by rw [h5]; omega, by rw [h6, h7]; omega, by omega⟩

/-- The image of flat position `p`. -/
def pb (p : Fin 2097152) : Fin 8 := ⟨p.val / 262144, by omega⟩
/-- The row of flat position `p`. -/
def ph (p : Fin 2097152) : Fin 512 := ⟨p.val / 512 % 512, by omega⟩
/-- The column of flat position `p`. -/
def pw (p : Fin 2097152) : Fin 512 := ⟨p.val % 512, by omega⟩

/-- The flat position's row of the reshaped logits: entry `c` is the logit of class `c` at the position's pixel. -/
theorem logits_at (X : FVec Ideal S8x21x512x512 .f32) (p : Fin 2097152) (c : Fin 21) :
    val_main_v2 (F := Ideal) X (ix2 p c) = X (ix4 (pb p) c (ph p) (pw p)) := by
  rw [val_main_v2_apply, val_main_v1_apply, val_main_v0_apply]
  congr 1
  funext a
  obtain ⟨e0, e1, e2, e3⟩ := flat_coords p.val c.val p.isLt c.isLt
  match a with
  | ⟨0, _⟩ => exact Fin.ext e0
  | ⟨1, _⟩ => exact Fin.ext e1
  | ⟨2, _⟩ => exact Fin.ext e2
  | ⟨3, _⟩ => exact Fin.ext e3

/-- The flat position's reshaped label word is the label of the position's pixel. -/
theorem label_at (T : IVec S8x512x512 32) (p : Fin 2097152) :
    val_main_v3 (F := Ideal) T (ix1 p) = T (ix3 (pb p) (ph p) (pw p)) := by
  rw [val_main_v3_apply]
  congr 1
  funext a
  match a with
  | ⟨0, _⟩ => rfl
  | ⟨1, _⟩ => rfl
  | ⟨2, _⟩ => rfl

/-! ## The log-softmax of a position's row -/

/-- The logits of the position's pixel. -/
def frow (X : FVec Ideal S8x21x512x512 .f32) (p : Fin 2097152) : Fin 21 → EReal :=
  fun c => X (ix4 (pb p) c (ph p) (pw p))

/-- On finite inputs the logits of a pixel are real numbers. -/
theorem frow_real (X : FVec Ideal S8x21x512x512 .f32) (hX : ∀ i, ∃ r : ℝ, X i = ((r : ℝ) : EReal)) (p : Fin 2097152) :
    ∃ x : Fin 21 → ℝ, frow X p = fun c => ((x c : ℝ) : EReal) :=
  ⟨fun c => (hX (ix4 (pb p) c (ph p) (pw p))).choose, funext fun c => (hX _).choose_spec⟩

/-- Position `p` with class `k` put back on the reduced axis is (p, k). -/
theorem lift_class (h : S2097152x21.Reduces [1] S2097152) (p : Fin 2097152) (k : Fin (S2097152x21.size 1)) :
    h.lift (ix1 p) k = ix2 p (⟨k.val, k.isLt⟩ : Fin 21) := by
  funext c; apply Fin.ext
  fin_cases c <;> rfl

/-- The max-reduce from -∞ over the classes, at a position, is the greatest logit of its pixel. -/
theorem rowmax_at (X : FVec Ideal S8x21x512x512 .f32) (p : Fin 2097152) :
    val_main_call1_v0 (F := Ideal) X (ix1 p) = vmax (frow X p) := by
  have hR : S2097152x21.Reduces [1] S2097152 := by decide
  have hf : (val_main_v2 (F := Ideal) X ∘ hR.lift (ix1 p)) = frow X p :=
    funext fun k => (congrArg (val_main_v2 (F := Ideal) X) (lift_class hR p k)).trans (logits_at X p _)
  unfold val_main_call1_v0
  rw [Host.reduce_eq_fold_single FloatOps.maximumf _ _ reducesTo_S2097152x21_S2097152_d1 hR h_S_, hf]
  show Finset.fold max (Ideal.ofBits .f32 0xFF800000#32) (frow X p) (Finset.univ : Finset (Fin 21)) = _
  rw [ofBits_neg_inf]
  rfl

/-- The logits shifted by their greatest. -/
theorem shift_at (X : FVec Ideal S8x21x512x512 .f32) (p : Fin 2097152) (c : Fin 21) :
    val_main_call1_v5 (F := Ideal) X (ix2 p c) = frow X p c - vmax (frow X p) := by
  have e : idx_main_call1_v3 (idx_main_call1_v4 (ix2 p c)) = ix1 p := by
    funext a; match a with | ⟨0, _⟩ => rfl
  rw [val_main_call1_v5_apply, val_main_call1_v4_apply, val_main_call1_v3_apply, val_main_call1_v2_apply,
    val_main_call1_v1_apply, val_main_call1_cst_0_apply, logits_at, e, rowmax_at]
  show frow X p c - max (Ideal.ofBits .f32 0xFF800000#32) (vmax (frow X p)) = _
  rw [ofBits_neg_inf, max_bot_left]

/-- The sum-reduce from 0 of the exponentials, at a position, is the pixel's sum of shifted exponentials. -/
theorem rowsum_at (X : FVec Ideal S8x21x512x512 .f32) (p : Fin 2097152) :
    val_main_call1_v7 (F := Ideal) X (ix1 p) = vsum (frow X p) := by
  rw [val_main_call1_v7_apply, val_main_call1_cst_1_apply]
  show Ideal.ofBits .f32 0x00000000#32 + _ = _
  rw [Ideal.ofBits_zero_f32, zero_add]
  unfold vsum
  refine Finset.sum_congr rfl fun k _ => ?_
  have e : idx_main_call1_v7 (ix1 p) k = ix2 p k := by
    funext a; match a with | ⟨0, _⟩ => rfl | ⟨1, _⟩ => rfl
  rw [e, val_main_call1_v6_apply, shift_at]
  rfl

/-- The log-softmax at (position, class) is the log-probability of the class at the position's pixel. -/
theorem logsoftmax_at (X : FVec Ideal S8x21x512x512 .f32) (p : Fin 2097152) (c : Fin 21) :
    val_main_v7 (F := Ideal) X (ix2 p c) = logpt (frow X p) c := by
  have e : idx_main_call1_v8 (idx_main_call1_v10 (ix2 p c)) = ix1 p := by
    funext a; match a with | ⟨0, _⟩ => rfl
  rw [val_main_v7_apply, val_main_call1_v10_apply, val_main_call1_v9_apply, val_main_call1_v8_apply, e, rowsum_at,
    shift_at]
  rfl

/-! ## The batched gather along the class axis -/

section Gather
variable {α : Type}

/-- The gather with the position as batching axis and the class axis collapsed and start-indexed reads, at (p, 0),
    row `p` of the operand at the start index of `p`, read signed and clamped into the 21 classes. -/
theorem gather_at (x : S2097152x21.Idx → α) (idx : IVec S2097152x1x1 32) (p : Fin 2097152) :
    Host.gather gather_S2097152x21_S2097152x1x1_S2097152x1_n_1_0_0_1_2_11 x idx (ix2 p (0 : Fin 1))
      = x (ix2 p (⟨min (idx (ix3 p (0 : Fin 1) (0 : Fin 1))).toInt.toNat 20, by omega⟩ : Fin 21)) := by
  unfold Host.gather
  congr 1
  funext a
  match a with
  | ⟨0, _⟩ =>
    refine Fin.ext ?_
    show gather_S2097152x21_S2097152x1x1_S2097152x1_n_1_0_0_1_2_11.start (ix2 p (0 : Fin 1)) idx 0
      + gather_S2097152x21_S2097152x1x1_S2097152x1_n_1_0_0_1_2_11.batchCoord (ix2 p (0 : Fin 1)) 0
      + gather_S2097152x21_S2097152x1x1_S2097152x1_n_1_0_0_1_2_11.offCoord (ix2 p (0 : Fin 1)) 0 = p.val
    have hb : (0 : Fin 2) ∈ gather_S2097152x21_S2097152x1x1_S2097152x1_n_1_0_0_1_2_11.operandBatchingDims := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    refine Fin.ext ?_
    show gather_S2097152x21_S2097152x1x1_S2097152x1_n_1_0_0_1_2_11.start (ix2 p (0 : Fin 1)) idx 1
      + gather_S2097152x21_S2097152x1x1_S2097152x1_n_1_0_0_1_2_11.batchCoord (ix2 p (0 : Fin 1)) 1
      + gather_S2097152x21_S2097152x1x1_S2097152x1_n_1_0_0_1_2_11.offCoord (ix2 p (0 : Fin 1)) 1
        = min (idx (ix3 p (0 : Fin 1) (0 : Fin 1))).toInt.toNat 20
    have hm : (1 : Fin 2) ∈ gather_S2097152x21_S2097152x1x1_S2097152x1_n_1_0_0_1_2_11.startIndexMap := List.mem_singleton.mpr rfl
    have hc : (1 : Fin 2) ∈ gather_S2097152x21_S2097152x1x1_S2097152x1_n_1_0_0_1_2_11.collapsedSliceDims := List.mem_singleton.mpr rfl
    rw [GatherDims.batchCoord_eq_zero _ _ _ (fun h => GatherDims.sim_disjoint _ _ hm h),
      GatherDims.offCoord_eq_zero _ _ _ (fun h => ((GatherDims.mem_sKept _ _).mp h).1 hc)]
    simp only [Nat.add_zero]
    unfold GatherDims.start
    rw [dif_pos hm]
    have hsi : gather_S2097152x21_S2097152x1x1_S2097152x1_n_1_0_0_1_2_11.siIdx (ix2 p (0 : Fin 1))
        ⟨List.idxOf (1 : Fin 2) gather_S2097152x21_S2097152x1x1_S2097152x1_n_1_0_0_1_2_11.startIndexMap, List.idxOf_lt_length_iff.2 hm⟩ = ix3 p (0 : Fin 1) (0 : Fin 1) := by
      funext b; refine Fin.ext ?_
      match b with
      | ⟨0, _⟩ => rfl
      | ⟨1, _⟩ => rfl
      | ⟨2, _⟩ => rfl
    rw [hsi]
    rfl

end Gather

/-! ## Label words -/

/-- A select on a word equality is a case split on the equality. -/
theorem sel_eq {β : Type} (t c : BitVec 32) (a b : β) :
    Scalar.select (IntOp.cmpi .eq t c) a b = if t = c then a else b := by
  unfold Scalar.select IntOp.cmpi
  by_cases h : t = c
  · subst h; simp
  · have hb : (t == c) = false := by simpa using h
    simp [hb, h]

/-- A class word 0 … 20: it is not negative, it is inside the range 0 … 20, it is not the ignore label, and read signed
    and clamped to the classes it is itself. -/
theorem class_word (r : BitVec 32) (hr : r.toNat < 21) :
    IntOp.cmpi .slt r 0#32 = 0#1 ∧ IntOp.cmpi .sge r 0#32 = 1#1 ∧ IntOp.cmpi .sle r 20#32 = 1#1
      ∧ IntOp.cmpi .ne r 255#32 = 1#1 ∧ min r.toInt.toNat 20 = r.toNat := by
  obtain ⟨k, hk, rfl⟩ : ∃ k, k < 21 ∧ r = BitVec.ofNat 32 k := ⟨r.toNat, hr, by simp⟩
  interval_cases k <;> decide

/-- The label word of the position's pixel. -/
def tword (T : IVec S8x512x512 32) (p : Fin 2097152) : BitVec 32 := T (ix3 (pb p) (ph p) (pw p))

/-- The remapped label at a position. -/
theorem remap_at (T : IVec S8x512x512 32) (p : Fin 2097152) :
    val_main_v6 (F := Ideal) T (ix1 p) = remap (tword T p) := by
  rw [val_main_v6_apply, val_main_v5_apply, val_main_v4_apply, val_main_c_apply, val_main_call0_v1_apply,
    val_main_call0_v0_apply, val_main_c_0_apply, label_at, sel_eq]
  rfl

/-- The remapped label as a column. -/
theorem remap_col_at (T : IVec S8x512x512 32) (p : Fin 2097152) :
    val_main_v8 (F := Ideal) T (ix2 p (0 : Fin 1)) = remap (tword T p) := by
  have e : idx_main_v8 (ix2 p (0 : Fin 1)) = ix1 p := by
    funext a; match a with | ⟨0, _⟩ => rfl
  rw [val_main_v8_apply, e, remap_at]

section Labelled
variable (T : IVec S8x512x512 32) (hT : ∀ i, InRange (T i))
include hT

/-- The start index of a position: its remapped label (a class, so the sign test does not fire). -/
theorem start_at (p : Fin 2097152) :
    val_main_call2_v5 (F := Ideal) T (ix3 p (0 : Fin 1) (0 : Fin 1)) = remap (tword T p) := by
  have e : idx_main_call2_v5 (ix3 p (0 : Fin 1) (0 : Fin 1)) = ix2 p (0 : Fin 1) := by
    funext a
    match a with
    | ⟨0, _⟩ => exact Fin.ext (by show ((p.val * 1 + 0) * 1 + 0) / 1 = p.val; omega)
    | ⟨1, _⟩ => rfl
  have hr := class_word _ (remap_lt (hT (ix3 (pb p) (ph p) (pw p))))
  rw [val_main_call2_v5_apply, e, val_main_call2_v4_apply, val_main_call2_v1_apply, val_main_call2_v0_apply,
    val_main_call2_c_apply, remap_col_at]
  show Scalar.select (IntOp.cmpi .slt (remap (tword T p)) 0#32) _ _ = _
  rw [show IntOp.cmpi .slt (remap (tword T p)) 0#32 = 0#1 from hr.1, select_zero]

/-- The range mask of a position is set. -/
theorem inrange_at (p : Fin 2097152) (k : Fin 1) :
    val_main_call2_v11 (F := Ideal) T (ix3 p (0 : Fin 1) k) = 1#1 := by
  obtain rfl : k = 0 := Subsingleton.elim _ _
  have hr := class_word _ (remap_lt (hT (ix3 (pb p) (ph p) (pw p))))
  have e9 : idx_main_call2_v8 (idx_main_call2_v9 (ix3 p (0 : Fin 1) (0 : Fin 1))) = ix1 (0 : Fin 1) := by
    funext a; match a with | ⟨0, _⟩ => rfl
  rw [val_main_call2_v11_apply, val_main_call2_v7_apply, val_main_call2_v10_apply, val_main_call2_v6_apply,
    val_main_call2_c_2_apply, val_main_call2_v9_apply, val_main_call2_v8_apply, val_main_call2_c_1_apply,
    start_at T hT]
  show IntOp.andi (IntOp.cmpi .sge (remap (tword T p)) 0#32) (IntOp.cmpi .sle (remap (tword T p)) 20#32) = 1#1
  rw [show IntOp.cmpi .sge (remap (tword T p)) 0#32 = 1#1 from hr.2.1,
    show IntOp.cmpi .sle (remap (tword T p)) 20#32 = 1#1 from hr.2.2.1]
  rfl

/-- Position (p, 0) with `k` put back on the reduced size-1 axis is (p, 0, k). -/
theorem lift_unit (h : S2097152x1x1.Reduces [2] S2097152x1) (p : Fin 2097152) (k : Fin (S2097152x1x1.size 2)) :
    h.lift (ix2 p (0 : Fin 1)) k = ix3 p (0 : Fin 1) (⟨k.val, k.isLt⟩ : Fin 1) := by
  funext c; apply Fin.ext
  fin_cases c <;> rfl

/-- The 'and'-reduce of the range mask over its size-1 axis, at a position, is set. -/
theorem mask_at (p : Fin 2097152) :
    val_main_call2_v12 (F := Ideal) T (ix2 p (0 : Fin 1)) = 1#1 := by
  have hR : S2097152x1x1.Reduces [2] S2097152x1 := by decide
  have hf : (val_main_call2_v11 (F := Ideal) T ∘ hR.lift (ix2 p (0 : Fin 1))) = fun _ => 1#1 :=
    funext fun k => (congrArg (val_main_call2_v11 (F := Ideal) T) (lift_unit T hT hR p k)).trans (inrange_at T hT p _)
  unfold val_main_call2_v12
  rw [Host.reduce_eq_fold_single IntOp.andi _ _ reducesTo_S2097152x1x1_S2097152x1_d2 hR h_S_, hf]
  show Finset.fold IntOp.andi 1#1 (fun _ => 1#1) (Finset.univ : Finset (Fin 1)) = 1#1
  rw [show (Finset.univ : Finset (Fin 1)) = {0} from by decide, Finset.fold_singleton]
  rfl

/-- take_along_axis at a position: the log-probability of the pixel's class. -/
theorem picked_at (X : FVec Ideal S8x21x512x512 .f32) (p : Fin 2097152) :
    val_main_v10 (F := Ideal) X T (ix1 p) = logpt (frow X p) (cls (remap (tword T p))) := by
  have e : idx_main_v10 (ix1 p) = ix2 p (0 : Fin 1) := by
    funext a
    match a with
    | ⟨0, _⟩ => exact Fin.ext (Nat.div_one _)
    | ⟨1, _⟩ => rfl
  have hlt : (remap (tword T p)).toNat < 21 := remap_lt (hT (ix3 (pb p) (ph p) (pw p)))
  have hr := class_word _ hlt
  rw [val_main_v10_apply, e, val_main_v9_apply, mask_at T hT, select_one]
  unfold val_main_call2_v13
  rw [gather_at, logsoftmax_at]
  congr 1
  refine Fin.ext ?_
  show min (val_main_call2_v5 (F := Ideal) T (ix3 p (0 : Fin 1) (0 : Fin 1))).toInt.toNat 20 = _
  rw [start_at T hT, cls_val hlt]
  exact hr.2.2.2.2

/-- The ignore mask of a position, as a float, is 1: the remapped label is never the ignore label. -/
theorem notignore_at (p : Fin 2097152) : val_main_v20 (F := Ideal) T (ix1 p) = (1 : EReal) := by
  have hr := class_word _ (remap_lt (hT (ix3 (pb p) (ph p) (pw p))))
  rw [val_main_v20_apply, val_main_v19_apply, val_main_v18_apply, val_main_c_2_apply, remap_at]
  show FloatOps.uitofp (F := Ideal) .f32 (IntOp.cmpi .ne (remap (tword T p)) 255#32) = 1
  rw [show IntOp.cmpi .ne (remap (tword T p)) 255#32 = 1#1 from hr.2.2.2.1]
  show (((1#1 : BitVec 1).toNat : ℝ) : EReal) = 1
  simp

end Labelled

/-! ## The stage before the final sum -/

/-- The reference's last elementwise product, read at a flat position, is the loss of the position's pixel. -/
theorem ref_pixel (X : FVec Ideal Cert.ReferenceIdeal.S8x21x512x512 .f32) (T : IVec Cert.ReferenceIdeal.S8x512x512 32)
    (hX : ∀ i, ∃ r : ℝ, X i = ((r : ℝ) : EReal)) (hT : ∀ i, Cert.Focal.InRange (T i)) (n : Cert.ReferenceIdeal.S2097152.Idx) :
    Cert.ReferenceIdeal.ReadP.val_main_v21 (F := Ideal) X T n
      = Cert.Focal.pixN X T ((n 0).val / 262144) ((n 0).val / 512 % 512) ((n 0).val % 512) := by
  obtain ⟨p, rfl⟩ : ∃ p : Fin 2097152, n = ix1 p :=
    ⟨⟨(n 0).val, (n 0).isLt⟩, by funext a; match a with | ⟨0, _⟩ => rfl⟩
  show _ = pixN X T (pb p).val (ph p).val (pw p).val
  rw [pixN_of_lt]
  obtain ⟨x, hx⟩ := frow_real X hX p
  rw [val_main_v21_apply, val_main_v17_apply, val_main_v16_apply, val_main_v15_apply, val_main_v13_apply,
    val_main_v12_apply, val_main_cst_apply, val_main_v11_apply, val_main_v14_apply, val_main_cst_1_apply,
    picked_at T hT, notignore_at T hT]
  show (-(Ideal.pow (Ideal.ofBits .f32 0x3F800000#32 - Ideal.exp (logpt (frow X p) (cls (remap (tword T p)))))
      (Ideal.ofBits .f32 0x40000000#32)) * logpt (frow X p) (cls (remap (tword T p)))) * 1
    = focal (frow X p) (cls (remap (tword T p)))
  rw [mul_one, ofBits_one, EReal.coe_one, hx]
  exact focal_pow x _

end Cert.ReferenceIdeal.RefPixel

end
-- ==== Proof.RefMean.lean ====
/-
  The reference's last two operations: the sum of the per-position losses over all 2²¹ flat positions, from the initial
  value zero, divided by the f32 constant 2²¹. A flat position n names the pixel (n / 262144, n / 512 % 512, n % 512), so the
  sum over positions is the total over pixels, and the quotient is the mean.
-/
import proofs.«420474_j10754598109558_3_alg».proof.Proof.RefRead
import proofs.«420474_j10754598109558_3_alg».proof.Proof.PixN
import proofs.«420474_j10754598109558_3_alg».proof.Proof.Sums
import Idealize.ShloMosaic.Lib.ValueIdxRank1

noncomputable section

namespace Cert.ReferenceIdeal.RefMean

open Idealize.ShloMosaic Idealize.ShloMosaic.ValueIdx Cert.ReferenceIdeal.ReadP

/-- The sum of the per-position values over every flat position is the total over pixels. -/
theorem sum_positions (X : FVec Ideal Cert.ReferenceIdeal.S8x21x512x512 .f32) (T : IVec Cert.ReferenceIdeal.S8x512x512 32)
    (h1 : ∀ n : Cert.ReferenceIdeal.S2097152.Idx, Cert.ReferenceIdeal.ReadP.val_main_v21 (F := Ideal) X T n
            = Cert.Focal.pixN X T ((n 0).val / 262144) ((n 0).val / 512 % 512) ((n 0).val % 512)) :
    (∑ j : Cert.ReferenceIdeal.S2097152.Idx, Cert.ReferenceIdeal.ReadP.val_main_v21 (F := Ideal) X T j : EReal)
      = Cert.Focal.total X T := by
  rw [Cert.Focal.total_eq, ← Cert.Focal.sum_flat (fun b h w => Cert.Focal.pixN X T b h w)]
  exact Fintype.sum_equiv idxEquiv1 _
    (fun n : Fin 2097152 => Cert.Focal.pixN X T (n.val / 262144) (n.val / 512 % 512) (n.val % 512)) (fun j => h1 j)

theorem ref_mean (X : FVec Ideal Cert.ReferenceIdeal.S8x21x512x512 .f32) (T : IVec Cert.ReferenceIdeal.S8x512x512 32)
    (h1 : ∀ n : Cert.ReferenceIdeal.S2097152.Idx, Cert.ReferenceIdeal.ReadP.val_main_v21 (F := Ideal) X T n
            = Cert.Focal.pixN X T ((n 0).val / 262144) ((n 0).val / 512 % 512) ((n 0).val % 512)) :
    Cert.ReferenceIdeal.ReadP.val_main_v23 (F := Ideal) X T = fun _ => Cert.Focal.mean X T := by
  funext i
  rw [val_main_v23_apply, val_main_v22_apply, val_main_cst_3_apply, val_main_cst_4_apply]
  show Ideal.div (Ideal.ofBits .f32 0x00000000#32 + _) (Ideal.ofBits .f32 0x4A000000#32) = _
  rw [Ideal.ofBits_zero_f32, zero_add, sum_positions X T h1]
  rfl

end Cert.ReferenceIdeal.RefMean

end
-- ==== Proof.lean ====
/-
  The kernel computes the focal loss of per-pixel class logits as the reference does, on the extended reals, for finite
  logits and labels in the label range (a class 0 … 20, or the ignore label 255, which both programs remap to class 0).

  Both programs end with the mean over the 8 · 512 · 512 pixels of -(1 - p)² log p, p the softmax probability of the
  pixel's class. The kernel works tile by tile: each grid point sums the losses of its 256 × 512 pixels, splats the sum
  over an [8, 128] output tile, and the host sums the output array and divides by the 1024 copies and by the number of
  pixels; on finite logits every loss is a real number, so the copies cancel exactly. The reference flattens the pixels,
  takes log_softmax along the classes, picks the class by a gather (in range, by the label range), and takes the mean.
  Per pixel the two spell the same extended real: the same greatest logit (a chain of maxima against a reduction), the
  same sum of shifted exponentials (a running sum against a reduction), the same picked logit (a chain of selects
  against a gather), and (1 - p)·(1 - p) against (1 - p) to the power 2.

  The frames of the two kernel programs are the generated ones; the reference's is its run with the result dropped.
  The idealization rewrote nothing, so `preserves` is `True`.
-/
import proofs.«420474_j10754598109558_3_alg».proof.Defs
import proofs.«420474_j10754598109558_3_alg».proof.Proof.Gen.Kernel
import proofs.«420474_j10754598109558_3_alg».proof.Proof.Gen.Kernel.Frame
import proofs.«420474_j10754598109558_3_alg».proof.Proof.Gen.KernelIdeal
import proofs.«420474_j10754598109558_3_alg».proof.Proof.Gen.KernelIdeal.Frame
import proofs.«420474_j10754598109558_3_alg».proof.Proof.Gen.ReferenceIdeal
import proofs.«420474_j10754598109558_3_alg».proof.Proof.Gen.Pre_finite_inputs
import proofs.«420474_j10754598109558_3_alg».proof.Proof.PreDecode
import proofs.«420474_j10754598109558_3_alg».proof.Proof.KernelRun
import proofs.«420474_j10754598109558_3_alg».proof.Proof.RefReadEq
import proofs.«420474_j10754598109558_3_alg».proof.Proof.RefPixel
import proofs.«420474_j10754598109558_3_alg».proof.Proof.RefMean
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the mean of the per-pixel losses of the argument arrays. -/
theorem algebraic : Cert.algebraic_KernelIdeal_ReferenceIdeal := by
  intro m ρ m' ρ' hpre hagree
  have hd := fun c => Cert.Focal.pre_decode _ _ (hpre c)
  refine ⟨fun c => fun _ => Cert.Focal.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ (fun c => (hd c).1) (fun c => (hd c).2), ?_⟩
  refine (θ_run Cert.ReferenceIdeal.defs _ _).mono (fun _ h c => ⟨?_, (h c).2⟩) (Cert.ReferenceIdeal.ValueP.run (F := Ideal) m' ρ')
  have hX' : ∀ i, ∃ r : ℝ, m' ((c.tc : Thread Cert.ReferenceIdeal.nD Cert.ReferenceIdeal.τ).loc Cert.ReferenceIdeal.main_arg0) i = ((r : ℝ) : EReal) := by
    rw [(hagree c).1]; exact (hd c).1
  have hT' : ∀ i, Cert.Focal.InRange (m' ((c.tc : Thread Cert.ReferenceIdeal.nD Cert.ReferenceIdeal.τ).loc Cert.ReferenceIdeal.main_arg1) i) := by
    rw [(hagree c).2]; exact (hd c).2
  rw [(h c).1, Cert.ReferenceIdeal.ReadP.val_main_v23_eq,
    Cert.ReferenceIdeal.RefMean.ref_mean _ _ (Cert.ReferenceIdeal.RefPixel.ref_pixel _ _ hX' hT'), (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
